-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x4 : Shape := ⟨2, ![1048576, 4]⟩
abbrev S1048576x1 : Shape := ⟨2, ![1048576, 1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S1048576x1 : S_.BroadcastsInDim S1048576x1 (![] : Fin 0 → Fin S1048576x1.rank)
  reducesTo_S1048576x1_S_d0_1 : S1048576x1.ReducesTo [0, 1] S_

variable [Facts]

def fn {F : FTy → Type} [FloatOps F] (main_arg0 : FVec F S1048576x64 .f32) (main_arg1 : FVec F S1048576x4 .f32) (main_arg2 : FVec F S1048576x1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S1048576x1 .f32 := Host.absf main_arg2
  let main_cst_2 : FVec F S_ .f32 := constant S_ .f32 0x7F800000#32
  let main_v10 : FVec F S1048576x1 .f32 := broadcastInDim S1048576x1 ![] bcast_S_S1048576x1 main_cst_2
  let main_v11 : IVec S1048576x1 1 := cmpf .olt main_v9 main_v10
  let main_c_3 : IVec S_ 1 := constantI S_ 1 1#1
  let main_v12 : IVec S_ 1 := (fun x v => Host.reduce IntOp.andi x v reducesTo_S1048576x1_S_d0_1 h_S_) main_v11 main_c_3
  let main_v13 : IVec S_ 1 := andi main_v8 main_v12
  main_v13
-- ==== Kernel.lean ====
abbrev S1048576x64 : Shape := ⟨2, ![1048576, 64]⟩
abbrev S1048576x4 : Shape := ⟨2, ![1048576, 4]⟩
abbrev S1048576x1 : Shape := ⟨2, ![1048576, 1]⟩
abbrev S2x8x128 : Shape := ⟨3, ![2, 8, 128]⟩
abbrev S2048x64 : Shape := ⟨2, ![2048, 64]⟩
abbrev S2048x4 : Shape := ⟨2, ![2048, 4]⟩
abbrev S2048x1 : Shape := ⟨2, ![2048, 1]⟩
abbrev S1x8x128 : Shape := ⟨3, ![1, 8, 128]⟩
abbrev S2048x16 : Shape := ⟨2, ![2048, 16]⟩
abbrev S2048 : Shape := ⟨1, ![2048]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S1048576x4, .f32⟩
  | .hbm, ⟨2, _⟩ => ⟨S1048576x1, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x4, .f32⟩
  | .local _ .vmem, ⟨3, _⟩ => ⟨S2048x4, .f32⟩
  | .local _ .vmem, ⟨4, _⟩ => ⟨S2048x1, .f32⟩
  | .local _ .vmem, ⟨5, _⟩ => ⟨S2048x1, .f32⟩
  | .local _ .vmem, ⟨6, _⟩ => ⟨S1x8x128, .f32⟩
  | .local _ .vmem, ⟨7, _⟩ => ⟨S1x8x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S2048x64_S2048x64_0_0 : ∀ a, (![0, 0] : Fin 2 → Nat) a + S2048x64.size a ≤ S2048x64.size a
  h_S2048x64 : 0 < S2048x64.numel
  inb_S2048x4_S2048x4_0_0 : ∀ a, (![0, 0] : Fin 2 → Nat) a + S2048x4.size a ≤ S2048x4.size a
  h_S2048x4 : 0 < S2048x4.numel
  inb_S2048x1_S2048x1_0_0 : ∀ a, (![0, 0] : Fin 2 → Nat) a + S2048x1.size a ≤ S2048x1.size a
  h_S2048x1 : 0 < S2048x1.numel
  slices_S2048x64_o0_0_S2048x16 : S2048x64.Slices ![0, 0] S2048x16
  slices_S2048x4_o0_0_S2048x1 : S2048x4.Slices ![0, 0] S2048x1
  iota_S2048x16_d1_w32 : S2048x16.Iotas .tc 32 [1]
  broadcasts_S2048x1_S2048x16 : S2048x1.Broadcasts S2048x16
  shapeCasts_S2048x1_S2048x1 : S2048x1.ShapeCasts S2048x1
  reduces_S2048x16_S2048 : S2048x16.Reduces [1] S2048
  shapeCasts_S2048_S2048x1 : S2048.ShapeCasts S2048x1
  slices_S2048x64_o0_16_S2048x16 : S2048x64.Slices ![0, 16] S2048x16
  slices_S2048x4_o0_1_S2048x1 : S2048x4.Slices ![0, 1] S2048x1
  slices_S2048x64_o0_32_S2048x16 : S2048x64.Slices ![0, 32] S2048x16
  slices_S2048x4_o0_2_S2048x1 : S2048x4.Slices ![0, 2] S2048x1
  slices_S2048x64_o0_48_S2048x16 : S2048x64.Slices ![0, 48] S2048x16
  slices_S2048x4_o0_3_S2048x1 : S2048x4.Slices ![0, 3] S2048x1
  reduces_S2048x1_S1 : S2048x1.Reduces [0] S1
  shapeCasts_S1_S1x1 : S1.ShapeCasts S1x1
  shapeCasts_S1x8x128_S1x8x128 : S1x8x128.ShapeCasts S1x8x128
  inpos_S1x1_p0_0 : ∀ a, (![0, 0] : Fin 2 → Nat) a < S1x1.size a
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S1048576x64.size a
  hwx0_0 : ∀ i : grid0.Coords, EltTy.bits .f32 = 32 ∨ (Rect.block (s := S1048576x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S1048576x4.size a
  hwx0_1 : ∀ i : grid0.Coords, EltTy.bits .f32 = 32 ∨ (Rect.block (s := S1048576x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S1048576x1.size a
  hwx0_2 : ∀ i : grid0.Coords, EltTy.bits .f32 = 32 ∨ (Rect.block (s := S1048576x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x4 : Shape := ⟨2, ![1048576, 4]⟩
abbrev S1048576x1 : Shape := ⟨2, ![1048576, 1]⟩
abbrev S1048576x4x16 : Shape := ⟨3, ![1048576, 4, 16]⟩
abbrev S_ : Shape := ⟨0, ![]⟩
abbrev S1048576x4x1 : Shape := ⟨3, ![1048576, 4, 1]⟩
abbrev S1x1x16 : Shape := ⟨3, ![1, 1, 16]⟩

abbrev nBuf : Space → Nat
  | .hbm => 89
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x4, .f32⟩
  | .hbm, ⟨2, _⟩ => ⟨S1048576x1, .f32⟩
  | .hbm, ⟨3, _⟩ => ⟨S1048576x4x16, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S1048576x4, .f32⟩
  | .hbm, ⟨8, _⟩ => ⟨S1048576x4, .f32⟩
  | .hbm, ⟨9, _⟩ => ⟨S_, .f32⟩
  | .hbm, ⟨10, _⟩ => ⟨S1048576x4, .f32⟩
  | .hbm, ⟨11, _⟩ => ⟨S1048576x4, .f32⟩
  | .hbm, ⟨12, _⟩ => ⟨S1048576x4, .f32⟩
  | .hbm, ⟨13, _⟩ => ⟨S1048576x4, .i32⟩
  | .hbm, ⟨14, _⟩ => ⟨S_, .i32⟩
  | .hbm, ⟨15, _⟩ => ⟨S1048576x4, .i32⟩
  | .hbm, ⟨16, _⟩ => ⟨S1048576x4, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1048576x4, .i32⟩
  | .hbm, ⟨21, _⟩ => ⟨S1048576x4, .i32⟩
  | .hbm, ⟨22, _⟩ => ⟨S_, .i32⟩
  | .hbm, ⟨23, _⟩ => ⟨S1048576x4, .i32⟩
  | .hbm, ⟨24, _⟩ => ⟨S1048576x4, .i32⟩
  | .hbm, ⟨25, _⟩ => ⟨S1048576x4, .f32⟩
  | .hbm, ⟨26, _⟩ => ⟨S1048576x4, .f32⟩
  | .hbm, ⟨27, _⟩ => ⟨S_, .f32⟩
  | .hbm, ⟨28, _⟩ => ⟨S1048576x4, .f32⟩
  | .hbm, ⟨29, _⟩ => ⟨S1048576x4, .f32⟩
  | .hbm, ⟨30, _⟩ => ⟨S1048576x4x1, .i32⟩
  | .hbm, ⟨31, _⟩ => ⟨S1x1x16, .i32⟩
  | .hbm, ⟨32, _⟩ => ⟨S1048576x4x16, .i32⟩
  | .hbm, ⟨33, _⟩ => ⟨S1048576x4x16, .i32⟩
  | .hbm, ⟨34, _⟩ => ⟨S1048576x4x16, .i1⟩
  | .hbm, ⟨35, _⟩ => ⟨S1048576x4x16, .f32⟩
  | .hbm, ⟨36, _⟩ => ⟨S1048576x4x1, .i32⟩
  | .hbm, ⟨37, _⟩ => ⟨S1x1x16, .i32⟩
  | .hbm, ⟨38, _⟩ => ⟨S1048576x4x16, .i32⟩
  | .hbm, ⟨39, _⟩ => ⟨S1048576x4x16, .i32⟩
  | .hbm, ⟨40, _⟩ => ⟨S1048576x4x16, .i1⟩
  | .hbm, ⟨41, _⟩ => ⟨S1048576x4x16, .f32⟩
  | .hbm, ⟨42, _⟩ => ⟨S1048576x4x1, .f32⟩
  | .hbm, ⟨43, _⟩ => ⟨S1048576x4x16, .f32⟩
  | .hbm, ⟨44, _⟩ => ⟨S1048576x4x16, .f32⟩
  | .hbm, ⟨45, _⟩ => ⟨S1048576x4x1, .f32⟩
  | .hbm, ⟨46, _⟩ => ⟨S1048576x4x16, .f32⟩
  | .hbm, ⟨47, _⟩ => ⟨S1048576x4x16, .f32⟩
  | .hbm, ⟨48, _⟩ => ⟨S1048576x4x16, .f32⟩
  | .hbm, ⟨49, _⟩ => ⟨S_, .f32⟩
  | .hbm, ⟨50, _⟩ => ⟨S1048576x4, .f32⟩
  | .hbm, ⟨51, _⟩ => ⟨S_, .f32⟩
  | .hbm, ⟨52, _⟩ => ⟨S1048576x4, .f32⟩
  | .hbm, ⟨53, _⟩ => ⟨S1048576x4, .f32⟩
  | .hbm, ⟨54, _⟩ => ⟨S1048576x4x1, .f32⟩
  | .hbm, ⟨55, _⟩ => ⟨S1048576x4x16, .f32⟩
  | .hbm, ⟨56, _⟩ => ⟨S1048576x4x16, .f32⟩
  | .hbm, ⟨57, _⟩ => ⟨S1048576x4x16, .f32⟩
  | .hbm, ⟨58, _⟩ => ⟨S_, .f32⟩
  | .hbm, ⟨59, _⟩ => ⟨S1048576x4, .f32⟩
  | .hbm, ⟨60, _⟩ => ⟨S1048576x4x1, .f32⟩
  | .hbm, ⟨61, _⟩ => ⟨S1048576x4x1, .f32⟩
  | .hbm, ⟨62, _⟩ => ⟨S1048576x4x16, .f32⟩
  | .hbm, ⟨63, _⟩ => ⟨S1048576x4x16, .f32⟩
  | .hbm, ⟨64, _⟩ => ⟨S_, .f32⟩
  | .hbm, ⟨65, _⟩ => ⟨S1048576x4x16, .f32⟩
  | .hbm, ⟨66, _⟩ => ⟨S1048576x4x16, .i1⟩
  | .hbm, ⟨67, _⟩ => ⟨S_, .f32⟩
  | .hbm, ⟨68, _⟩ => ⟨S_, .f32⟩
  | .hbm, ⟨69, _⟩ => ⟨S1048576x4x16, .f32⟩
  | .hbm, ⟨70, _⟩ => ⟨S1048576x4x16, .f32⟩
  | .hbm, ⟨71, _⟩ => ⟨S1048576x4x16, .f32⟩
  | .hbm, ⟨72, _⟩ => ⟨S_, .f32⟩
  | .hbm, ⟨73, _⟩ => ⟨S1048576x4x16, .f32⟩
  | .hbm, ⟨74, _⟩ => ⟨S1048576x4x16, .i1⟩
  | .hbm, ⟨75, _⟩ => ⟨S1048576x4x16, .f32⟩
  | .hbm, ⟨76, _⟩ => ⟨S1048576x4x16, .f32⟩
  | .hbm, ⟨77, _⟩ => ⟨S_, .f32⟩
  | .hbm, ⟨78, _⟩ => ⟨S_, .f32⟩
  | .hbm, ⟨79, _⟩ => ⟨S1048576x4x16, .f32⟩
  | .hbm, ⟨80, _⟩ => ⟨S1048576x4x16, .f32⟩
  | .hbm, ⟨81, _⟩ => ⟨S_, .f32⟩
  | .hbm, ⟨82, _⟩ => ⟨S1048576x4, .f32⟩
  | .hbm, ⟨83, _⟩ => ⟨S1048576x4, .f32⟩
  | .hbm, ⟨84, _⟩ => ⟨S1048576x4, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v11 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call4_cst : Ref sig .tc := ⟨.hbm, 49, rfl⟩
abbrev main_call4_v0 : Ref sig .tc := ⟨.hbm, 50, rfl⟩
abbrev main_call4_cst_0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_v6 : Ref sig .tc := ⟨.hbm, 57, rfl⟩
abbrev main_call4_cst_1 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_v20 : Ref sig .tc := ⟨.hbm, 63, rfl⟩
abbrev main_cst_4 : Ref sig .tc := ⟨.hbm, 64, rfl⟩
abbrev main_v21 : Ref sig .tc := ⟨.hbm, 65, rfl⟩
abbrev main_v22 : Ref sig .tc := ⟨.hbm, 66, rfl⟩
abbrev main_cst_5 : Ref sig .tc := ⟨.hbm, 67, rfl⟩
abbrev main_call5_v0 : Ref sig .tc := ⟨.hbm, 68, rfl⟩
abbrev main_call5_v1 : Ref sig .tc := ⟨.hbm, 69, rfl⟩
abbrev main_v23 : Ref sig .tc := ⟨.hbm, 70, rfl⟩
abbrev main_v24 : Ref sig .tc := ⟨.hbm, 71, rfl⟩
abbrev main_cst_6 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_7 : Ref sig .tc := ⟨.hbm, 77, rfl⟩
abbrev main_call6_v0 : Ref sig .tc := ⟨.hbm, 78, rfl⟩
abbrev main_call6_v1 : Ref sig .tc := ⟨.hbm, 79, rfl⟩
abbrev main_v29 : Ref sig .tc := ⟨.hbm, 80, rfl⟩
abbrev main_cst_8 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_9 : Ref sig .tc := ⟨.hbm, 85, rfl⟩
abbrev main_v33 : Ref sig .tc := ⟨.hbm, 86, rfl⟩
abbrev main_cst_10 : Ref sig .tc := ⟨.hbm, 87, rfl⟩
abbrev main_v34 : Ref sig .tc := ⟨.hbm, 88, rfl⟩

abbrev nD : Nat := 1
abbrev τ : Topo := Topo.v7x

variable {F : FTy → Type} [FloatOps F]

class Facts₀ : Prop where
  shapeCasts_S1048576x64_S1048576x4x16 : S1048576x64.ShapeCasts S1048576x4x16
  bcast_S_S1048576x4 : S_.BroadcastsInDim S1048576x4 (![] : Fin 0 → Fin S1048576x4.rank)
  bcast_S1048576x4_S1048576x4x1_0_1 : S1048576x4.BroadcastsInDim S1048576x4x1 (![0, 1] : Fin 2 → Fin S1048576x4x1.rank)
  bcast_S1048576x4x1_S1048576x4x16_0_1_2 : S1048576x4x1.BroadcastsInDim S1048576x4x16 (![0, 1, 2] : Fin 3 → Fin S1048576x4x16.rank)
  bcast_S1x1x16_S1048576x4x16_0_1_2 : S1x1x16.BroadcastsInDim S1048576x4x16 (![0, 1, 2] : Fin 3 → Fin S1048576x4x16.rank)
  reducesTo_S1048576x4x16_S1048576x4_d2 : S1048576x4x16.ReducesTo [2] S1048576x4
  h_S_ : 0 < S_.numel
  bcast_S_S1048576x4x16 : S_.BroadcastsInDim S1048576x4x16 (![] : Fin 0 → Fin S1048576x4x16.rank)
  bcast_S1048576x1_S1048576x4_0_1 : S1048576x1.BroadcastsInDim S1048576x4 (![0, 1] : Fin 2 → Fin S1048576x4.rank)
  reducesTo_S1048576x4_S_d0_1 : S1048576x4.ReducesTo [0, 1] S_

variable [Facts₀]

class Facts : Prop extends Facts₀ where

variable [Facts]
-- ==== Proof.Spec.lean ====
/-
  The distribution-focal loss of one box side, as one function of extended reals, and the order-free
  facts the two programs' arrangements of it need.

  A box side has sixteen logits `p` and a continuous target `t`. The target is clipped to `[0, 15]`, its
  mass split between the bins `⌊t⌋` (weight `1 - (t - ⌊t⌋)`) and `min (⌊t⌋ + 1) 15` (weight `t - ⌊t⌋`): a
  two-hot label `q`. The side's loss is the Kullback–Leibler sum `∑ⱼ q j · (log q j − logsoftmax p j)` over the bins
  with `q j > 0`, times the row's weight. A row of the input has four sides; the result is the sum over all
  rows and sides divided by their number.
-/
import Idealize.ShloMosaic.PureOps.Ideal
import Idealize.ShloMosaic.PureOps.Ideal.Laws
import Idealize.ShloMosaic.Lib.ValueIdx

noncomputable section

open scoped BigOperators

namespace Cert.DFL

open Idealize.ShloMosaic

/-! ## The literals both programs spell -/

abbrev zeroR : EReal := Ideal.ofBits .f32 0x00000000#32
abbrev oneR : EReal := Ideal.ofBits .f32 0x3F800000#32
abbrev fifteenR : EReal := Ideal.ofBits .f32 0x41700000#32
abbrev negInf : EReal := Ideal.ofBits .f32 0xFF800000#32

theorem zeroR_eq : zeroR = 0 := by simp [Ideal.ofBits, Ideal.ieee]
theorem oneR_eq : oneR = 1 := by simp [Ideal.ofBits, Ideal.ieee, -EReal.coe_mul]; norm_num
theorem fifteenR_eq : fifteenR = ((15 : ℝ) : EReal) := by simp [Ideal.ofBits, Ideal.ieee, -EReal.coe_mul]; norm_num
theorem negInf_eq : negInf = ⊥ := by simp [Ideal.ofBits, Ideal.ieee]

/-! ## One box side -/

/-- The target clipped to `[0, 15]`. -/
def clipT (t : EReal) : EReal := min fifteenR (max zeroR t)
/-- Its integer part, as an extended real … -/
def floorT (t : EReal) : EReal := Ideal.liftRound Int.floor (clipT t)
/-- … and as a 32-bit word: the left bin. -/
def leftBin (t : EReal) : BitVec 32 := Ideal.fptosi 32 (floorT t)
/-- The fractional part: the right bin's weight. -/
def wRight (t : EReal) : EReal := clipT t - floorT t
/-- The left bin's weight. -/
def wLeft (t : EReal) : EReal := oneR - wRight t
/-- The right bin: the left bin's successor, clamped to `[0, 15]`. -/
def rightBin (t : EReal) : BitVec 32 := IntOp.minsi 15#32 (IntOp.maxsi 0#32 (IntOp.addi (leftBin t) 1#32))
/-- Bin `j` as a word. -/
def lane (j : Fin 16) : BitVec 32 := BitVec.ofNat 32 j.val
/-- The two-hot label at bin `j`. -/
def twoHot (t : EReal) (j : Fin 16) : EReal :=
  Scalar.select (IntOp.cmpi .eq (lane j) (leftBin t)) (wLeft t) zeroR
    + Scalar.select (IntOp.cmpi .eq (lane j) (rightBin t)) (wRight t) zeroR
/-- The largest logit (the fold of `max` from `-∞`). -/
def rowMax (p : Fin 16 → EReal) : EReal := (Finset.univ : Finset (Fin 16)).fold max negInf p
/-- A logit less the largest. -/
def shifted (p : Fin 16 → EReal) (j : Fin 16) : EReal := p j - rowMax p
/-- The log of the sum of the shifted logits' exponentials. -/
def logSumExp (p : Fin 16 → EReal) : EReal := Ideal.log (∑ j : Fin 16, Ideal.exp (shifted p j))
/-- The Kullback–Leibler term of bin `j` for a label `q`: zero where the label has no mass. -/
def klOf (p q : Fin 16 → EReal) (j : Fin 16) : EReal :=
  Scalar.select (Ideal.cmp .ogt (q j) zeroR)
    (q j * (Ideal.log (Scalar.select (Ideal.cmp .ogt (q j) zeroR) (q j) oneR) - (shifted p j - logSumExp p)))
    zeroR
/-- The same for the two-hot label of target `t`. -/
def klAt (p : Fin 16 → EReal) (t : EReal) (j : Fin 16) : EReal := klOf p (twoHot t) j
/-- One side's weighted loss. -/
def sideLoss (p : Fin 16 → EReal) (t w : EReal) : EReal := (∑ j : Fin 16, klAt p t j) * w

/-- Column `16k + j` of a 64-wide row: logit `j` of side `k`. -/
def seg (k : Fin 4) (j : Fin 16) : Fin 64 := ⟨16 * k.val + j.val, by have := k.isLt; have := j.isLt; omega⟩

/-- One row's loss: its four sides, added to zero one after the other. -/
def rowLoss (p : Fin 64 → EReal) (t : Fin 4 → EReal) (w : EReal) : EReal :=
  zeroR + sideLoss (fun j => p (seg 0 j)) (t 0) w + sideLoss (fun j => p (seg 1 j)) (t 1) w
    + sideLoss (fun j => p (seg 2 j)) (t 2) w + sideLoss (fun j => p (seg 3 j)) (t 3) w

theorem rowLoss_eq_sum (p : Fin 64 → EReal) (t : Fin 4 → EReal) (w : EReal) :
    rowLoss p t w = ∑ k : Fin 4, sideLoss (fun j => p (seg k j)) (t k) w := by
  unfold rowLoss
  rw [zeroR_eq, zero_add, Fin.sum_univ_four]

/-! ## What differs between the two programs' spellings -/

/-- The clipped target is a real in `[0, 15]`. -/
theorem clipT_real (t : EReal) : ∃ r : ℝ, clipT t = (r : EReal) ∧ 0 ≤ r ∧ r ≤ 15 := by
  unfold clipT
  rw [fifteenR_eq, zeroR_eq]
  induction t using EReal.rec with
  | bot => exact ⟨0, by simp, le_refl _, by norm_num⟩
  | top => exact ⟨15, by simp, by norm_num, le_refl _⟩
  | coe x =>
    refine ⟨min 15 (max 0 x), ?_, le_min (by norm_num) (le_max_left _ _), min_le_left _ _⟩
    rw [EReal.coe_strictMono.monotone.map_min, EReal.coe_strictMono.monotone.map_max, EReal.coe_zero]

/-- Converting the left bin's word back to a float gives the integer part again: on `[0, 15]` the
    conversion to a word loses nothing. -/
theorem sitofp_leftBin (t : EReal) : (((leftBin t).toInt : ℝ) : EReal) = floorT t := by
  obtain ⟨r, hr, h0, h15⟩ := clipT_real t
  unfold leftBin floorT
  rw [hr]
  show (((Ideal.fptosi 32 ((⌊r⌋ : ℝ) : EReal)).toInt : ℝ) : EReal) = ((⌊r⌋ : ℝ) : EReal)
  have hf0 : 0 ≤ ⌊r⌋ := Int.floor_nonneg.mpr h0
  have hf15 : ⌊r⌋ ≤ 15 := by
    have : ⌊r⌋ ≤ ⌊(15 : ℝ)⌋ := Int.floor_le_floor h15
    simpa using this
  unfold Ideal.fptosi
  rw [Ideal.toIntClamped_coe]
  have hnn : (0 : ℝ) ≤ ((⌊r⌋ : ℤ) : ℝ) := by exact_mod_cast hf0
  rw [if_pos hnn, Int.floor_intCast]
  have hmin : min ((2 ^ (32 - 1) : ℕ) - 1 : ℤ) ⌊r⌋ = ⌊r⌋ := by
    apply min_eq_right; norm_num; omega
  have hmax : max (-((2 ^ (32 - 1) : ℕ) : ℤ)) ⌊r⌋ = ⌊r⌋ := by
    apply max_eq_right; norm_num; omega
  rw [hmin, hmax]
  congr 2
  rw [BitVec.toInt_ofInt]
  rw [Int.bmod_eq_of_le] <;> omega

/-- A one-hot factor times a weight is the select of the weight against zero. -/
theorem uitofp_mul (b : BitVec 1) (w : EReal) : (((b.toNat : ℝ) : EReal)) * w = Scalar.select b w zeroR := by
  rcases BitVec.eq_zero_or_eq_one b with h | h
  · subst h
    rw [ValueIdx.select_zero, zeroR_eq]
    simp
  · subst h
    rw [ValueIdx.select_one]
    simp

/-- The reference's upper clip bound, the integer 15 converted, is the kernel's literal `15.0`. -/
theorem sitofp_fifteen : ((((15#32 : BitVec 32)).toInt : ℝ) : EReal) = fifteenR := by
  rw [fifteenR_eq]
  norm_num [BitVec.toInt]

/-- The maximum with `-∞` is the other operand. -/
theorem max_negInf (x : EReal) : max negInf x = x := by
  rw [negInf_eq]; exact max_eq_right bot_le

/-! ## The accumulator across grid points

An output block revisited over 256 consecutive points, reset to zero at the first of them and then increased by each
point's tile loss, ends the run of 256 holding the sum of their losses. -/

/-- What the revisited block holds after point `n`, the tiles' losses given by `L`. -/
def runAcc (L : ℕ → EReal) : ℕ → EReal
  | 0 => zeroR + L 0
  | n + 1 => if (n + 1) % 256 = 0 then zeroR + L (n + 1) else runAcc L n + L (n + 1)

theorem runAcc_block (L : ℕ → EReal) (c : ℕ) : ∀ j : ℕ, j < 256 →
    runAcc L (c * 256 + j) = ∑ s ∈ Finset.range (j + 1), L (c * 256 + s)
  | 0, _ => by
    rw [Finset.sum_range_one, Nat.add_zero]
    rcases Nat.eq_zero_or_pos c with h | h
    · subst h; simp only [Nat.zero_mul]; unfold runAcc; rw [zeroR_eq, zero_add]
    · obtain ⟨n, hn⟩ : ∃ n, c * 256 = n + 1 := ⟨c * 256 - 1, by omega⟩
      rw [hn]; unfold runAcc
      rw [if_pos (by omega), zeroR_eq, zero_add]
  | j + 1, hj => by
    rw [Finset.sum_range_succ, ← runAcc_block L c j (by omega)]
    show runAcc L (c * 256 + j + 1) = _
    conv_lhs => unfold runAcc
    rw [if_neg (by omega)]
    rfl

/-! ## Regrouping the total

The reference adds all `1048576 × 4` side losses at once; the kernel adds, per core, per grid step, per row of the tile, the
row's four sides. Addition of extended reals is commutative and associative, so the two totals agree. -/

/-- Row `r` of tile `b` is row `2048 b + r` of the whole array. -/
def tileRow (b : Fin 512) (r : Fin 2048) : Fin 1048576 :=
  ⟨b.val * 2048 + r.val, by have := b.isLt; have := r.isLt; omega⟩

/-- Tile `256 c + j`: core `c`'s `j`-th step. -/
def coreTile (c : Fin 2) (j : Fin 256) : Fin 512 := ⟨c.val * 256 + j.val, by have := c.isLt; have := j.isLt; omega⟩

theorem sum_rows (g : Fin 1048576 → EReal) :
    ∑ n : Fin 1048576, g n = ∑ c : Fin 2, ∑ j : Fin 256, ∑ r : Fin 2048, g (tileRow (coreTile c j) r) := by
  have e1 : ∑ n : Fin 1048576, g n = ∑ b : Fin 512, ∑ r : Fin 2048, g (tileRow b r) := by
    rw [← Fintype.sum_prod_type']
    refine (Fintype.sum_equiv (finProdFinEquiv (m := 512) (n := 2048)) _ _ fun x => ?_).symm
    refine congrArg g (Fin.ext ?_)
    show x.1.val * 2048 + x.2.val = x.2.val + 2048 * x.1.val
    omega
  have e2 : ∀ h : Fin 512 → EReal, ∑ b : Fin 512, h b = ∑ c : Fin 2, ∑ j : Fin 256, h (coreTile c j) := by
    intro h
    rw [← Fintype.sum_prod_type']
    refine (Fintype.sum_equiv (finProdFinEquiv (m := 2) (n := 256)) _ _ fun x => ?_).symm
    refine congrArg h (Fin.ext ?_)
    show x.1.val * 256 + x.2.val = x.2.val + 256 * x.1.val
    omega
  rw [e1, e2]

end Cert.DFL

end
-- ==== Proof.KSide.lean ====
/-
  The kernel body's arithmetic, side by side. The printed body computes, for each of the four box sides, a column of
  weighted side losses from a sixteen-column slice of the logits' block and one column of the targets' block, adds the
  four columns to a zero column, sums the column over the tile's rows and adds that scalar to every entry of the
  output block. Here one side's column is written once (`sideCol`), the generated payload chain is shown to be four of them
  (`body_eq`, by unfolding), and a side's column is read at a row as the specification's `sideLoss`.
-/
import proofs.«122073_j13116830122188_1_alg».proof.Proof.Gen.KernelIdeal.Skeleton
import proofs.«122073_j13116830122188_1_alg».proof.Proof.Spec
import Idealize.ShloMosaic.Lib.Pipeline.Value
import Idealize.ShloMosaic.PureOps.Ideal.Laws

noncomputable section

open scoped BigOperators

namespace Cert.KernelIdeal.Side

open Cert.KernelIdeal Cert.KernelIdeal.Gen
open Idealize.ShloMosaic Idealize.ShloMosaic.ValueIdx

variable {F : FTy → Type} [FloatOps F]

/-- The two-hot label of every row of a tile, from the raw target column. -/
def labelBlock (traw : FVec F S2048x1 .f32) : FVec F S2048x16 .f32 :=
  have v9 : FVec F S2048x1 .f32 := broadcast S2048x1 (Scalar.ofBits .f32 0x00000000#32)
  have v10 : FVec F S2048x1 .f32 := maximumf v9 traw
  have v11 : FVec F S2048x1 .f32 := broadcast S2048x1 (Scalar.ofBits .f32 0x41700000#32)
  have v12 : FVec F S2048x1 .f32 := minimumf v11 v10
  have v13 : FVec F S2048x1 .f32 := floor v12
  have v14 : IVec S2048x1 32 := fptosi 32 v13
  have v15 : FVec F S2048x1 .f32 := subf v12 v13
  have v16 : FVec F S2048x1 .f32 := broadcast S2048x1 (Scalar.ofBits .f32 0x3F800000#32)
  have v17 : FVec F S2048x1 .f32 := subf v16 v15
  have v18 : IVec S2048x1 32 := broadcast S2048x1 1#32
  have v19 : IVec S2048x1 32 := addi v14 v18
  have v20 : IVec S2048x1 32 := broadcast S2048x1 0#32
  have v21 : IVec S2048x1 32 := maxsi v20 v19
  have v22 : IVec S2048x1 32 := broadcast S2048x1 15#32
  have v23 : IVec S2048x1 32 := minsi v22 v21
  have v24 : IVec S2048x16 32 := iota .tc S2048x16 32 [1] Facts₀.iota_S2048x16_d1_w32
  have v25 : IVec S2048x16 32 := broadcastTo S2048x16 v14 Facts₀.broadcasts_S2048x1_S2048x16
  have v26 : IVec S2048x16 1 := cmpi .eq v24 v25
  have v27 : FVec F S2048x1 .f32 := shapeCast S2048x1 v17 Facts₀.shapeCasts_S2048x1_S2048x1
  have v28 : FVec F S2048x16 .f32 := broadcastTo S2048x16 v27 Facts₀.broadcasts_S2048x1_S2048x16
  have v29 : FVec F S2048x16 .f32 := broadcast S2048x16 (Scalar.ofBits .f32 0x00000000#32)
  have v30 : FVec F S2048x16 .f32 := select v26 v28 v29
  have v31 : IVec S2048x16 32 := broadcastTo S2048x16 v23 Facts₀.broadcasts_S2048x1_S2048x16
  have v32 : IVec S2048x16 1 := cmpi .eq v24 v31
  have v33 : FVec F S2048x1 .f32 := shapeCast S2048x1 v15 Facts₀.shapeCasts_S2048x1_S2048x1
  have v34 : FVec F S2048x16 .f32 := broadcastTo S2048x16 v33 Facts₀.broadcasts_S2048x1_S2048x16
  have v35 : FVec F S2048x16 .f32 := broadcast S2048x16 (Scalar.ofBits .f32 0x00000000#32)
  have v36 : FVec F S2048x16 .f32 := select v32 v34 v35
  addf v30 v36

/-- Each row's largest entry. -/
def rowMaxV (p : FVec F S2048x16 .f32) : FVec F S2048 .f32 :=
  multiReduction .maximumf [1] S2048 p 0xFF800000#32 Facts₀.reduces_S2048x16_S2048 (.inl rfl) rfl
/-- Each row's sum. -/
def rowSumV (v : FVec F S2048x16 .f32) : FVec F S2048 .f32 :=
  multiReduction .add [1] S2048 v 0x00000000#32 Facts₀.reduces_S2048x16_S2048 (.inl rfl) rfl
/-- A column's total, as a one-entry vector. -/
def colSumV (col : FVec F S2048x1 .f32) : FVec F S1 .f32 :=
  multiReduction .add [0] S1 col 0x00000000#32 Facts₀.reduces_S2048x1_S1 (.inl rfl) rfl

/-- The Kullback–Leibler sum of every row of a tile, from the side's logits and the rows' labels. -/
def klRows (p : FVec F S2048x16 .f32) (q : FVec F S2048x16 .f32) : FVec F S2048 .f32 :=
  have v38 : FVec F S2048 .f32 := rowMaxV p
  have v39 : FVec F S2048x1 .f32 := shapeCast S2048x1 v38 Facts₀.shapeCasts_S2048_S2048x1
  have v40 : FVec F S2048x16 .f32 := broadcastTo S2048x16 v39 Facts₀.broadcasts_S2048x1_S2048x16
  have v41 : FVec F S2048x16 .f32 := subf p v40
  have v42 : FVec F S2048x16 .f32 := exp v41
  have v43 : FVec F S2048 .f32 := rowSumV v42
  have v44 : FVec F S2048x1 .f32 := shapeCast S2048x1 v43 Facts₀.shapeCasts_S2048_S2048x1
  have v45 : FVec F S2048x1 .f32 := log v44
  have v46 : FVec F S2048x16 .f32 := broadcastTo S2048x16 v45 Facts₀.broadcasts_S2048x1_S2048x16
  have v47 : FVec F S2048x16 .f32 := subf v41 v46
  have v48 : FVec F S2048x16 .f32 := broadcast S2048x16 (Scalar.ofBits .f32 0x00000000#32)
  have v49 : IVec S2048x16 1 := cmpf .ogt q v48
  have v50 : FVec F S2048x16 .f32 := broadcast S2048x16 (Scalar.ofBits .f32 0x3F800000#32)
  have v51 : FVec F S2048x16 .f32 := select v49 q v50
  have v52 : FVec F S2048x16 .f32 := log v51
  have v53 : FVec F S2048x16 .f32 := broadcast S2048x16 (Scalar.ofBits .f32 0x00000000#32)
  have v54 : IVec S2048x16 1 := cmpf .ogt q v53
  have v55 : FVec F S2048x16 .f32 := subf v52 v47
  have v56 : FVec F S2048x16 .f32 := mulf q v55
  have v57 : FVec F S2048x16 .f32 := broadcast S2048x16 (Scalar.ofBits .f32 0x00000000#32)
  have v58 : FVec F S2048x16 .f32 := select v54 v56 v57
  rowSumV v58

/-- One side's column of weighted losses. -/
def sideCol (p : FVec F S2048x16 .f32) (traw : FVec F S2048x1 .f32) (w : Vec F S2048x1 .f32) : FVec F S2048x1 .f32 :=
  mulf (shapeCast S2048x1 (klRows p (labelBlock traw)) Facts₀.shapeCasts_S2048_S2048x1) w

/-- The four sides' columns added to a zero column, in the body's order. -/
def lossCol (x0 : Vec F S2048x64 .f32) (x1 : Vec F S2048x4 .f32) (x2 : Vec F S2048x1 .f32) : FVec F S2048x1 .f32 :=
  addf (addf (addf (addf (broadcast S2048x1 (Scalar.ofBits .f32 0x00000000#32))
    (sideCol (extractStridedSlice S2048x16 ![0, 0] x0 Facts₀.slices_S2048x64_o0_0_S2048x16) (extractStridedSlice S2048x1 ![0, 0] x1 Facts₀.slices_S2048x4_o0_0_S2048x1) x2))
    (sideCol (extractStridedSlice S2048x16 ![0, 16] x0 Facts₀.slices_S2048x64_o0_16_S2048x16) (extractStridedSlice S2048x1 ![0, 1] x1 Facts₀.slices_S2048x4_o0_1_S2048x1) x2))
    (sideCol (extractStridedSlice S2048x16 ![0, 32] x0 Facts₀.slices_S2048x64_o0_32_S2048x16) (extractStridedSlice S2048x1 ![0, 2] x1 Facts₀.slices_S2048x4_o0_2_S2048x1) x2))
    (sideCol (extractStridedSlice S2048x16 ![0, 48] x0 Facts₀.slices_S2048x64_o0_48_S2048x16) (extractStridedSlice S2048x1 ![0, 3] x1 Facts₀.slices_S2048x4_o0_3_S2048x1) x2)

/-- What the body stores: the output block it found, every entry increased by the column's total. -/
def stored (col : FVec F S2048x1 .f32) (xo : Vec F S1x8x128 .f32) : FVec F S1x8x128 .f32 :=
  addf (shapeCast S1x8x128 xo Facts₀.shapeCasts_S1x8x128_S1x8x128)
    (broadcast S1x8x128 (extractAt ![0, 0] (shapeCast S1x1 (colSumV col) Facts₀.shapeCasts_S1_S1x1) Facts₀.inpos_S1x1_p0_0))

/-- The generated payload chain of the final store, over whole blocks. -/
abbrev payChain (x0 : Vec F S2048x64 .f32) (x1 : Vec F S2048x4 .f32) (x2 : Vec F S2048x1 .f32) (xo : Vec F S1x8x128 .f32) : FVec F S1x8x128 .f32 :=
  k0_pay1 x2
    (k0_pay25 x2
      (k0_pay17 x2 (k0_pay7 x2 k0_pay3 (k0_pay4 x0) (k0_pay5 x1) (k0_pay6 x0)) (k0_pay8 x0) (k0_pay12 x1) (k0_pay13 x1)
        (iota Kind.tc S2048x16 32 [1] Facts₀.iota_S2048x16_d1_w32) (k0_pay14 x1) (k0_pay15 x1) k0_pay16)
      (k0_pay18 x0) (k0_pay21 x1) (k0_pay22 x1) (k0_pay23 x1) (k0_pay24 x1) 0#32 15#32)
    (k0_pay28 (k0_pay26 x0) (k0_pay27 x1)) xo

/-- The payload chain is the four sides' columns, summed and added to the block: the same operations in the same order. -/
theorem body_eq (x0 : Vec F S2048x64 .f32) (x1 : Vec F S2048x4 .f32) (x2 : Vec F S2048x1 .f32) (xo : Vec F S1x8x128 .f32) :
    payChain x0 x1 x2 xo = stored (lossCol x0 x1 x2) xo := rfl

end Cert.KernelIdeal.Side

end
-- ==== Proof.KBody.lean ====
/-
  What the body leaves in the output block, case by case. At a core's first grid step the body stores a zero block, reads it
  back and stores it increased by the tile's total; at every other step it reads the block the step before left and
  stores that increased by the tile's total. The generated run found these stores as pieces; read back, they are the
  `stored` value of Proof/KSide.lean over the whole input blocks.
-/
import proofs.«122073_j13116830122188_1_alg».proof.Proof.Gen.KernelIdeal.Frame
import proofs.«122073_j13116830122188_1_alg».proof.Proof.KSide
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Side

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first step stores. -/
abbrev zeroBlock : Vec F S1x8x128 .f32 := broadcast S1x8x128 (Scalar.ofBits .f32 0x00000000#32)

/-- A later step: the block found, every entry increased by the tile's total. -/
theorem out_B (c : Dev nD) (i : grid0.Coords) (a2 : Memref sig .tc .vmem S2048x64 .f32) (h2 : a2.IsWhole)
    (a3 : Memref sig .tc .vmem S2048x4 .f32) (h3 : a3.IsWhole) (a4 : Memref sig .tc .vmem S2048x1 .f32) (h4 : a4.IsWhole)
    (a5 : Memref sig .tc .vmem S1x8x128 .f32) (h5 : a5.IsWhole) (hc : ¬cond0_0 i)
    (x0 : Vec F S2048x64 .f32) (x1 : Vec F S2048x4 .f32) (x2 : Vec F S2048x1 .f32) (xo : Vec F S1x8x128 .f32) :
    out0_B_3 c i a2 h2 a3 h3 a4 h4 a5 h5 hc x0 x1 x2 xo = stored (lossCol x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S2048x64) hz2, View.ld_unit_zero (S := S2048x4) hz2, View.ld_unit_zero (S := S2048x1) hz2,
    View.ld_unit_zero (S := S1x8x128) hz3]
  exact body_eq x0 x1 x2 xo

/-- A core's first step: the zero block, every entry increased by the tile's total. -/
theorem out_A (c : Dev nD) (i : grid0.Coords) (a2 : Memref sig .tc .vmem S2048x64 .f32) (h2 : a2.IsWhole)
    (a3 : Memref sig .tc .vmem S2048x4 .f32) (h3 : a3.IsWhole) (a4 : Memref sig .tc .vmem S2048x1 .f32) (h4 : a4.IsWhole)
    (a5 : Memref sig .tc .vmem S1x8x128 .f32) (h5 : a5.IsWhole) (hc : cond0_0 i)
    (x0 : Vec F S2048x64 .f32) (x1 : Vec F S2048x4 .f32) (x2 : Vec F S2048x1 .f32) :
    out0_A_3 c i a2 h2 a3 h3 a4 h4 a5 h5 hc x0 x1 x2 = stored (lossCol x0 x1 x2) zeroBlock := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S2048x64) hz2, View.ld_unit_zero (S := S2048x4) hz2, View.ld_unit_zero (S := S2048x1) hz2,
    View.ld_unit_zero (S := S1x8x128) hz3]
  exact body_eq x0 x1 x2 (k0_pay2 (F := F))

end Cert.KernelIdeal.Body

end
-- ==== Proof.KRow.lean ====
/-
  A tile's losses read row by row. The layout operations of the body (a column broadcast along the bins, a vector of row
  results viewed as a column, a reduction along the bins) read a row's sixteen entries, so each row's side loss depends on
  that row alone: the label at bin `j` of row `r` is the specification's two-hot label of the row's target, a side's
  column at row `r` its `sideLoss`, the four-side column its `rowLoss`, and the stored block every entry of the found
  block plus the sum of the rows' losses.
-/
import proofs.«122073_j13116830122188_1_alg».proof.Proof.KSide

noncomputable section

open scoped BigOperators

namespace Cert.KernelIdeal.Side

open Cert.KernelIdeal Cert.KernelIdeal.Gen
open Idealize.ShloMosaic Idealize.ShloMosaic.ValueIdx

/-! ## The layout operations as functions of the index -/

/-- A column broadcast along the bins reads its row's entry. -/
theorem bcast_fun {α : Type} (v : S2048x1.Idx → α) :
    broadcastTo S2048x16 v Facts₀.broadcasts_S2048x1_S2048x16 = fun i => v (ix2 (i 0) 0) := by
  funext i
  exact broadcastTo_apply v Facts₀.broadcasts_S2048x1_S2048x16 i (ix2 (i 0) 0) fun a => by
    match a with
    | ⟨0, _⟩ => show (i 0).val = if (2048 : Nat) = 1 then 0 else (i 0).val; rw [if_neg (by decide)]
    | ⟨1, _⟩ => show 0 = if (1 : Nat) = 1 then 0 else (i 1).val; rw [if_pos rfl]

/-- A vector of row results viewed as a column reads the row's result. -/
theorem cast_fun {α : Type} (v : S2048.Idx → α) :
    shapeCast S2048x1 v Facts₀.shapeCasts_S2048_S2048x1 = fun i => v (ix1 (i 0)) := by
  funext i
  refine shapeCast_apply v Facts₀.shapeCasts_S2048_S2048x1 i (ix1 (i 0)) ?_
  rw [Shape.rowMajor_val_one, Shape.rowMajor_val_two]
  have h1 : (i 1).val = 0 := by have := (i 1).isLt; simp at this; omega
  show (i 0).val = (i 0).val * 1 + (i 1).val
  omega

/-- The sum along the bins at a row is the sum of the row's sixteen entries. -/
theorem rowSumV_fun (v : FVec Ideal S2048x16 .f32) :
    rowSumV (F := Ideal) v = fun i => ∑ j : Fin 16, v (ix2 (i 0) j) := by
  funext i
  unfold rowSumV
  refine (Ideal.multiReduction_add_single v 0x00000000#32 Facts₀.reduces_S2048x16_S2048 _ _ i).trans ?_
  refine Finset.sum_congr rfl fun j _ => congrArg v (funext fun a => Fin.ext ?_)
  match a with
  | ⟨0, _⟩ => rfl
  | ⟨1, _⟩ => rfl

/-- The maximum along the bins at a row is the fold of `max` from `-∞` over the row's sixteen entries. -/
theorem rowMaxV_fun (v : FVec Ideal S2048x16 .f32) :
    rowMaxV (F := Ideal) v = fun i => DFL.rowMax (fun j => v (ix2 (i 0) j)) := by
  funext i
  unfold rowMaxV
  refine (Ideal.multiReduction_maximumf_single v 0xFF800000#32 Facts₀.reduces_S2048x16_S2048 _ _ i).trans ?_
  unfold DFL.rowMax
  refine congrArg (fun f => (Finset.univ : Finset (Fin 16)).fold max DFL.negInf f) (funext fun j => ?_)
  refine congrArg v (funext fun a => Fin.ext ?_)
  match a with
  | ⟨0, _⟩ => rfl
  | ⟨1, _⟩ => rfl

/-- A column's total is the sum of its 2048 entries. -/
theorem colSumV_apply (col : FVec Ideal S2048x1 .f32) (i : S1.Idx) :
    colSumV (F := Ideal) col i = ∑ r : Fin 2048, col (ix2 r 0) := by
  unfold colSumV
  refine (Ideal.multiReduction_add_single col 0x00000000#32 Facts₀.reduces_S2048x1_S1 _ _ i).trans ?_
  refine Finset.sum_congr rfl fun r _ => congrArg col (funext fun a => Fin.ext ?_)
  match a with
  | ⟨0, _⟩ => rfl
  | ⟨1, _⟩ =>
    have h : (i 0).val < 1 := (i 0).isLt
    show (i 0).val = 0
    omega

/-- The bin counter reads the bin. -/
theorem iota_fun : iota .tc S2048x16 32 [1] Facts₀.iota_S2048x16_d1_w32 = fun i => BitVec.ofNat 32 (i 1).val := by
  funext i
  exact iota_single_apply .tc S2048x16 32 1 Facts₀.iota_S2048x16_d1_w32 i

/-! ## One side at a row -/

/-- The label block at bin `j` of row `r` is the two-hot label of the row's target. -/
theorem labelBlock_apply (traw : FVec Ideal S2048x1 .f32) (r : Fin 2048) (j : Fin 16) :
    labelBlock (F := Ideal) traw (ix2 r j) = DFL.twoHot (traw (ix2 r 0)) j := by
  unfold labelBlock
  simp only [bcast_fun, shapeCast_self]
  rw [iota_fun]
  rfl

/-- The Kullback–Leibler sums at row `r` are the sum over the bins of the row's terms. -/
theorem klRows_apply (p q : FVec Ideal S2048x16 .f32) (r : Fin 2048) :
    klRows (F := Ideal) p q (ix1 r) = ∑ j : Fin 16, DFL.klOf (fun j => p (ix2 r j)) (fun j => q (ix2 r j)) j := by
  unfold klRows
  simp only [bcast_fun, cast_fun, rowSumV_fun, rowMaxV_fun]
  rfl

/-- One side's column at row `r` is the row's weighted side loss. -/
theorem sideCol_apply (p : FVec Ideal S2048x16 .f32) (traw : FVec Ideal S2048x1 .f32) (w : Vec Ideal S2048x1 .f32) (r : Fin 2048) :
    sideCol (F := Ideal) p traw w (ix2 r 0) = DFL.sideLoss (fun j => p (ix2 r j)) (traw (ix2 r 0)) (w (ix2 r 0)) := by
  unfold sideCol
  rw [cast_fun]
  show klRows p (labelBlock traw) (ix1 r) * w (ix2 r 0) = _
  rw [klRows_apply]
  unfold DFL.sideLoss DFL.klAt
  simp only [labelBlock_apply]

end Cert.KernelIdeal.Side

end
-- ==== Proof.KTile.lean ====
/-
  A tile's total. The column of the four sides at row `r` is the specification's `rowLoss` of that row's sixty-four logits,
  four targets and weight; the stored block is the found block with the sum of the tile's rows' losses added to every entry.
-/
import proofs.«122073_j13116830122188_1_alg».proof.Proof.KRow

noncomputable section

open scoped BigOperators

namespace Cert.KernelIdeal.Side

open Cert.KernelIdeal Cert.KernelIdeal.Gen
open Idealize.ShloMosaic Idealize.ShloMosaic.ValueIdx

/-- A sixteen-column slice of the logits' block at offset `16 k` reads side `k`'s logits. -/
theorem pslice_apply (x0 : Vec Ideal S2048x64 .f32) (k : Fin 4) (off : Fin 2 → Nat) (hoff : off = ![0, 16 * k.val])
    (h : S2048x64.Slices off S2048x16) (r : Fin 2048) (j : Fin 16) :
    extractStridedSlice S2048x16 off x0 h (ix2 r j) = x0 (ix2 r (DFL.seg k j)) := by
  subst hoff
  refine extractStridedSlice_apply _ x0 h (ix2 r j) (ix2 r (DFL.seg k j)) fun a => ?_
  match a with
  | ⟨0, _⟩ => show r.val = 0 + r.val; omega
  | ⟨1, _⟩ => rfl

/-- A one-column slice of the targets' block at offset `k` reads side `k`'s target. -/
theorem tslice_apply (x1 : Vec Ideal S2048x4 .f32) (k : Fin 4) (off : Fin 2 → Nat) (hoff : off = ![0, k.val])
    (h : S2048x4.Slices off S2048x1) (r : Fin 2048) :
    extractStridedSlice S2048x1 off x1 h (ix2 r 0) = x1 (ix2 r k) := by
  subst hoff
  refine extractStridedSlice_apply _ x1 h (ix2 r 0) (ix2 r k) fun a => ?_
  match a with
  | ⟨0, _⟩ => show r.val = 0 + r.val; omega
  | ⟨1, _⟩ => show k.val = k.val + 0; omega

/-- The four sides' column at row `r` is the row's loss. -/
theorem lossCol_apply (x0 : Vec Ideal S2048x64 .f32) (x1 : Vec Ideal S2048x4 .f32) (x2 : Vec Ideal S2048x1 .f32) (r : Fin 2048) :
    lossCol (F := Ideal) x0 x1 x2 (ix2 r 0)
      = DFL.rowLoss (fun q => x0 (ix2 r q)) (fun k => x1 (ix2 r k)) (x2 (ix2 r 0)) := by
  unfold lossCol DFL.rowLoss
  show DFL.zeroR + sideCol _ _ x2 (ix2 r 0) + sideCol _ _ x2 (ix2 r 0) + sideCol _ _ x2 (ix2 r 0) + sideCol _ _ x2 (ix2 r 0) = _
  rw [sideCol_apply, sideCol_apply, sideCol_apply, sideCol_apply]
  rw [tslice_apply x1 0 ![0, 0] rfl _ r, tslice_apply x1 1 ![0, 1] rfl _ r, tslice_apply x1 2 ![0, 2] rfl _ r,
    tslice_apply x1 3 ![0, 3] rfl _ r]
  rw [funext (pslice_apply x0 0 ![0, 0] rfl _ r), funext (pslice_apply x0 1 ![0, 16] rfl _ r),
    funext (pslice_apply x0 2 ![0, 32] rfl _ r), funext (pslice_apply x0 3 ![0, 48] rfl _ r)]

/-- The stored block is the found block with the column's total added to every entry. -/
theorem stored_apply (col : FVec Ideal S2048x1 .f32) (xo : Vec Ideal S1x8x128 .f32) (i : S1x8x128.Idx) :
    stored (F := Ideal) col xo i = xo i + ∑ r : Fin 2048, col (ix2 r 0) := by
  unfold stored
  rw [shapeCast_self]
  show xo i + extractAt ![0, 0] (shapeCast S1x1 (colSumV col) Facts₀.shapeCasts_S1_S1x1) Facts₀.inpos_S1x1_p0_0 = _
  congr 1
  unfold extractAt
  refine (shapeCast_apply (colSumV col) Facts₀.shapeCasts_S1_S1x1 _ (ix1 0) ?_).trans (colSumV_apply col _)
  rw [Shape.rowMajor_val_one, Shape.rowMajor_val_two]
  rfl

/-- A tile's total loss: the sum of its rows' losses. -/
def tileLoss (x0 : Vec Ideal S2048x64 .f32) (x1 : Vec Ideal S2048x4 .f32) (x2 : Vec Ideal S2048x1 .f32) : EReal :=
  ∑ r : Fin 2048, DFL.rowLoss (fun q => x0 (ix2 r q)) (fun k => x1 (ix2 r k)) (x2 (ix2 r 0))

/-- What the body stores, entry by entry: the found entry plus the tile's total. -/
theorem stored_lossCol (x0 : Vec Ideal S2048x64 .f32) (x1 : Vec Ideal S2048x4 .f32) (x2 : Vec Ideal S2048x1 .f32)
    (xo : Vec Ideal S1x8x128 .f32) (i : S1x8x128.Idx) :
    stored (F := Ideal) (lossCol x0 x1 x2) xo i = xo i + tileLoss x0 x1 x2 := by
  rw [stored_apply]
  unfold tileLoss
  simp only [lossCol_apply]

end Cert.KernelIdeal.Side

end
-- ==== Proof.KValue.lean ====
/-
  The accumulation over the grid, and what the result array ends holding. The output block of a core is revisited over
  its 256 consecutive grid points: reset at the first, increased at each point by that point's tile total, written back
  after the last. So after point `n` every entry of the staging block holds the running accumulator of the tiles'
  totals (`DFL.runAcc`), and after the run entry `(c, ·, ·)` of the result array holds core `c`'s accumulator after its
  last point.
-/
import proofs.«122073_j13116830122188_1_alg».proof.Proof.Gen.KernelIdeal.Frame
import proofs.«122073_j13116830122188_1_alg».proof.Proof.KBody
import proofs.«122073_j13116830122188_1_alg».proof.Proof.KTile
import Idealize.ShloMosaic.Lib.Pipeline.Value
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Side Cert.KernelIdeal.Body
open Idealize.ShloMosaic.ValueIdx

variable (m : (ℓ : Loc nD τ sig) → Buf (Elt Ideal) ℓ) (ρ : Dev nD → PrngReg)

/-- The three input blocks of grid point `t`, at their literal shapes. -/
abbrev blk0 (c : Dev nD) (t : Fin cfg0.N) : Vec Ideal S2048x64 .f32 := iblk m c 0 t
abbrev blk1 (c : Dev nD) (t : Fin cfg0.N) : Vec Ideal S2048x4 .f32 := iblk m c 1 t
abbrev blk2 (c : Dev nD) (t : Fin cfg0.N) : Vec Ideal S2048x1 .f32 := iblk m c 2 t

/-- The total loss of the tile of grid position `n` (zero past the grid). -/
def tileAt (c : Dev nD) (n : ℕ) : EReal :=
  if h : n < cfg0.N then tileLoss (blk0 m c ⟨n, h⟩) (blk1 m c ⟨n, h⟩) (blk2 m c ⟨n, h⟩) else 0

theorem tileAt_of_lt (c : Dev nD) (n : ℕ) (h : n < cfg0.N) :
    tileAt m c n = tileLoss (blk0 m c ⟨n, h⟩) (blk1 m c ⟨n, h⟩) (blk2 m c ⟨n, h⟩) := dif_pos h

/-- A core's first point leaves zero plus the tile's total in every entry. -/
theorem first_step (c : Dev nD) (t : Fin cfg0.N) (h0 : t.val % 256 = 0) (i : S1x8x128.Idx) :
    outsAt0 m c t.val t.isLt i = DFL.zeroR + tileAt m c t.val := by
  rw [outsAt0_A m c t h0, out_A]
  refine (stored_lossCol (blk0 m c t) (blk1 m c t) (blk2 m c t) zeroBlock i).trans ?_
  rw [tileAt_of_lt m c t.val t.isLt]
  rfl

/-- A later point adds the tile's total to what the point before left. -/
theorem later_step (c : Dev nD) (t : Fin cfg0.N) (h0 : ¬t.val % 256 = 0) (i : S1x8x128.Idx) :
    outsAt0 m c t.val t.isLt i
      = outsAt0 m c (t.val - 1) (Nat.lt_of_le_of_lt (Nat.sub_le _ _) t.isLt) i + tileAt m c t.val := by
  rw [outsAt0_B m c t h0, out_B]
  refine (stored_lossCol (blk0 m c t) (blk1 m c t) (blk2 m c t) _ i).trans ?_
  rw [tileAt_of_lt m c t.val t.isLt]

/-- After point `n` every entry of the output's staging block is the running accumulator. -/
theorem outsAt_eq (c : Dev nD) : ∀ (n : ℕ) (h : n < cfg0.N) (i : S1x8x128.Idx),
    outsAt0 m c n h i = DFL.runAcc (tileAt m c) n
  | 0, h, i => (first_step m c ⟨0, h⟩ rfl i).trans rfl
  | n + 1, h, i => by
    by_cases h0 : (n + 1) % 256 = 0
    · refine (first_step m c ⟨n + 1, h⟩ h0 i).trans ?_
      show _ = DFL.runAcc (tileAt m c) (n + 1)
      conv_rhs => unfold DFL.runAcc
      rw [if_pos h0]
    · refine (later_step m c ⟨n + 1, h⟩ h0 i).trans ?_
      show outsAt0 m c n _ i + tileAt m c (n + 1) = DFL.runAcc (tileAt m c) (n + 1)
      rw [outsAt_eq c n _ i]
      conv_rhs => unfold DFL.runAcc
      rw [if_neg h0]

/-- What the result array ends holding: at `(c, ·, ·)`, core `c`'s accumulator after its last point. -/
def finalArr (c : Dev nD) : Buf (Elt Ideal) ((c : Thread nD τ).loc main_v0) :=
  fun i : S2x8x128.Idx => DFL.runAcc (tileAt m c) ((i 0).val * 256 + 255)

/-- The output's block index at point `t`: the core on the first axis, zero on the others. -/
theorem idx3 : ∀ t : Fin cfg0.N, win0_3.index t (0 : Fin 3) = t.val / 256 ∧ win0_3.index t (1 : Fin 3) = 0
    ∧ win0_3.index t (2 : Fin 3) = 0 :=
  (by decide +kernel : ∀ t : Fin grid0.N, win0_3.index t (0 : Fin 3) = t.val / 256 ∧ win0_3.index t (1 : Fin 3) = 0
    ∧ win0_3.index t (2 : Fin 3) = 0)

/-- A write-back (after a core's last point) writes that block of `finalArr`. -/
theorem flushed_eq (c : Dev nD) (t : Fin cfg0.N) (hf : (cfg0.win 3).flush t = true) :
    (dats m 0 c).flushed 3 t = ((cfg0.win 3).blk t).view.read (Elt Ideal) (finalArr m c) := by
  have h255 : t.val % 256 = 255 := (flush0_3 t).mp hf
  obtain ⟨e0, -, -⟩ := idx3 t
  show (cfg0.win 3).cut (grid0.coords t) ((dats m 0 c).after 3 t) = _
  rw [after0_3]
  funext y
  show outsAt0 m c t.val t.isLt y = finalArr m c (((cfg0.win 3).blk t).view.emb y)
  rw [outsAt_eq]
  show _ = DFL.runAcc (tileAt m c) ((((cfg0.win 3).blk t).view.emb y 0).val * 256 + 255)
  congr 1
  show t.val = (win0_3.index t (0 : Fin 3) * 1 + 1 * (y 0).val) * 256 + 255
  have hy : (y 0).val < 1 := (y 0).isLt
  omega

/-- An index of the result array is in point `t`'s block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0).slice (win0_3.rect t)).set ↔ _
  rw [View.set_slice_whole, Rect.mem_set_unit]
  exact Iff.rfl

/-- Every index of the result array is under the block some write-back writes. -/
theorem cover (i : S2x8x128.Idx) : ∃ t : Fin cfg0.N, (cfg0.win 3).flush t = true ∧ i ∈ ((cfg0.win 3).blk t).view.set := by
  have hN : cfg0.N = 512 := N_0
  have hi0 : (i 0).val < 2 := (i 0).isLt
  have hi1 : (i 1).val < 8 := (i 1).isLt
  have hi2 : (i 2).val < 128 := (i 2).isLt
  have hlt : (i 0).val * 256 + 255 < cfg0.N := by omega
  obtain ⟨e0, e1, e2⟩ := idx3 ⟨(i 0).val * 256 + 255, hlt⟩
  have e0' : win0_3.index ⟨(i 0).val * 256 + 255, hlt⟩ (0 : Fin 3) = ((i 0).val * 256 + 255) / 256 := e0
  refine ⟨⟨(i 0).val * 256 + 255, hlt⟩, (flush0_3 _).mpr (by show ((i 0).val * 256 + 255) % 256 = 255; omega), ?_⟩
  rw [mem_blk3]
  intro a
  match a with
  | ⟨0, _⟩ =>
    show win0_3.index ⟨(i 0).val * 256 + 255, hlt⟩ (0 : Fin 3) * 1 ≤ (i 0).val ∧ (i 0).val < win0_3.index ⟨(i 0).val * 256 + 255, hlt⟩ (0 : Fin 3) * 1 + 1
    omega
  | ⟨1, _⟩ =>
    show win0_3.index ⟨(i 0).val * 256 + 255, hlt⟩ (1 : Fin 3) * 8 ≤ (i 1).val ∧ (i 1).val < win0_3.index ⟨(i 0).val * 256 + 255, hlt⟩ (1 : Fin 3) * 8 + 8
    omega
  | ⟨2, _⟩ =>
    show win0_3.index ⟨(i 0).val * 256 + 255, hlt⟩ (2 : Fin 3) * 128 ≤ (i 2).val ∧ (i 2).val < win0_3.index ⟨(i 0).val * 256 + 255, hlt⟩ (2 : Fin 3) * 128 + 128
    omega

/-- So the result array ends at `finalArr`. -/
theorem final3 (c : Dev nD) : (dats m 0 c).arrAt 3 cfg0.N = finalArr m c :=
  (dats m 0 c).arrAt_eq_of_cover 3 (finalArr m c) (flushed_eq m c) cover

/-- A sum over a rank-one index set is the sum over its coordinate. -/
theorem sum_idx1 {n : Nat} (f : (⟨1, ![n]⟩ : Shape).Idx → EReal) : ∑ i, f i = ∑ a : Fin n, f (ix1 a) :=
  (Fintype.sum_equiv ⟨fun i => i 0, ix1, fun i => (eq_ix1 i).symm, fun _ => rfl⟩ _ _ fun i => congrArg f (eq_ix1 i)).trans rfl

/-- The program's result: the two cores' accumulators added to zero, divided by the number of rows and sides. -/
def kernelResult (c : Dev nD) : Buf (Elt Ideal) ((c : Thread nD τ).loc main_v4) :=
  fun _ => Ideal.div (DFL.zeroR + (DFL.runAcc (tileAt m c) 255 + DFL.runAcc (tileAt m c) 511)) (Ideal.ofBits .f32 0x4A800000#32)

/-- Entry `(k, 0, 0)` of the result array through the host's slice and reshape. -/
theorem sliced_apply (A : S2x8x128.Idx → EReal) (k : Fin 2) :
    shapeCast S2 (extractStridedSlice S2x1x1 ![0, 0, 0] A Facts₀.slices_S2x8x128_S2x1x1_0_0_0) Facts₀.shapeCasts_S2x1x1_S2 (ix1 k)
      = A (ix3 k 0 0) := by
  refine (shapeCast_apply _ Facts₀.shapeCasts_S2x1x1_S2 (ix1 k) (ix3 k 0 0) ?_).trans ?_
  · rw [Shape.rowMajor_val_one, Shape.rowMajor_val_three]
    show (k.val * 1 + 0) * 1 + 0 = k.val
    omega
  · refine extractStridedSlice_apply _ A Facts₀.slices_S2x8x128_S2x1x1_0_0_0 (ix3 k 0 0) (ix3 k 0 0) fun a => ?_
    match a with
    | ⟨0, _⟩ => show k.val = 0 + k.val; omega
    | ⟨1, _⟩ => rfl
    | ⟨2, _⟩ => rfl

/-- The host operations after the region leave the result buffer at `kernelResult`. -/
theorem tail_eq (c : Dev nD) : Pipeline.afterTail₀ cfgs (dats m) 0 (V0 m) [hostOps1] c main_v4 = kernelResult m c := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v0)
      = finalArr m c from (Pipeline.withArrays_arr spec0 launch0.win.arr_inj c _ _ 3).trans (final3 m c)]
  funext i
  unfold kernelResult
  simp only [Host.divf, Host.reduceAdd, Ideal.hostReduceAdd_def, Ideal.hostDivf_def]
  refine congrArg₂ Ideal.div ?_ rfl
  refine (Ideal.hostReduceAdd_total Facts₀.reducesTo_S2_S_d0 (fun b => b.elim0) _ _ i).trans ?_
  refine congrArg (DFL.zeroR + ·) ?_
  refine (sum_idx1 _).trans ?_
  rw [Fin.sum_univ_two]
  exact congrArg₂ (· + ·) (sliced_apply (finalArr m c) 0) (sliced_apply (finalArr m c) 1)

/-- The kernel program's run, read: the result buffer at `kernelResult`, the arguments unchanged. -/
theorem run : θ_run defs (onTc (τ := τ) (main (F := Ideal))) ⟨m, fun _ => 0, ρ⟩ fun r => ∀ c : Dev nD,
      r.2.mem ((c.tc : Thread nD τ).loc main_v4) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.KBridge.lean ====
/-
  From tiles to the whole arrays. Grid point `t` stages rows `2048 t … 2048 t + 2047` of each argument, so a tile's total is the
  sum of those rows' losses read off the argument arrays themselves, a core's accumulator after its last point the sum over
  its 256 tiles, and the program's result the sum of all `1048576` rows' losses (each the sum of its four sides) added to zero
  and divided by the number of rows and sides.
-/
import proofs.«122073_j13116830122188_1_alg».proof.Proof.KValue

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Side Cert.KernelIdeal.Body
open Idealize.ShloMosaic.ValueIdx

variable (m : (ℓ : Loc nD τ sig) → Buf (Elt Ideal) ℓ) (ρ : Dev nD → PrngReg)

-- the accumulator is used here through its closed form only
attribute [local irreducible] DFL.runAcc

/-- The three input windows' block index at point `t`: row block `t`, column block `0`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The arguments as plain arrays. -/
abbrev logits (c : Dev nD) : S1048576x64.Idx → EReal := m ((c.tc : Thread nD τ).loc main_arg0)
abbrev targets (c : Dev nD) : S1048576x4.Idx → EReal := m ((c.tc : Thread nD τ).loc main_arg1)
abbrev weights (c : Dev nD) : S1048576x1.Idx → EReal := m ((c.tc : Thread nD τ).loc main_arg2)

/-- Row `r` of the tile of point `t`, in the whole array. -/
def rowOf (t : Fin cfg0.N) (r : Fin 2048) : Fin 1048576 :=
  ⟨t.val * 2048 + r.val, by have h : t.val < 512 := lt_of_lt_of_eq t.isLt N_0; have := r.isLt; omega⟩

theorem blk0_apply (c : Dev nD) (t : Fin cfg0.N) (r : Fin 2048) (q : Fin 64) :
    blk0 m c t (ix2 r q) = logits m c (ix2 (rowOf t r) q) := by
  obtain ⟨e0, e1, -, -, -, -⟩ := idx_in t
  show iblk m c 0 t (ix2 r q) = _
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 64 + 1 * q.val = q.val; rw [e1]; omega

theorem blk1_apply (c : Dev nD) (t : Fin cfg0.N) (r : Fin 2048) (k : Fin 4) :
    blk1 m c t (ix2 r k) = targets m c (ix2 (rowOf t r) k) := by
  obtain ⟨-, -, e0, e1, -, -⟩ := idx_in t
  show iblk m c 1 t (ix2 r k) = _
  unfold iblk
  rw [View.read_apply]
  show V m c main_arg1 _ = m ((c.tc : Thread nD τ).loc main_arg1) _
  rw [V_main_arg1]
  congr 1
  funext a
  apply Fin.ext
  match a with
  | ⟨0, _⟩ => show win0_1.index t (0 : Fin 2) * 2048 + 1 * r.val = t.val * 2048 + r.val; rw [e0]; omega
  | ⟨1, _⟩ => show win0_1.index t (1 : Fin 2) * 4 + 1 * k.val = k.val; rw [e1]; omega

theorem blk2_apply (c : Dev nD) (t : Fin cfg0.N) (r : Fin 2048) :
    blk2 m c t (ix2 r 0) = weights m c (ix2 (rowOf t r) 0) := by
  obtain ⟨-, -, -, -, e0, e1⟩ := idx_in t
  show iblk m c 2 t (ix2 r 0) = _
  unfold iblk
  rw [View.read_apply]
  show V m c main_arg2 _ = m ((c.tc : Thread nD τ).loc main_arg2) _
  rw [V_main_arg2]
  congr 1
  funext a
  apply Fin.ext
  match a with
  | ⟨0, _⟩ => show win0_2.index t (0 : Fin 2) * 2048 + 1 * r.val = t.val * 2048 + r.val; rw [e0]; omega
  | ⟨1, _⟩ => show win0_2.index t (1 : Fin 2) * 1 + 1 * 0 = 0; rw [e1]

/-- One row's loss, read off the argument arrays. -/
def rowAt (c : Dev nD) (n : Fin 1048576) : EReal :=
  DFL.rowLoss (fun q => logits m c (ix2 n q)) (fun k => targets m c (ix2 n k)) (weights m c (ix2 n 0))

/-- A tile's total is the sum of its rows' losses in the whole arrays. -/
theorem tileAt_eq (c : Dev nD) (b : Fin 512) : tileAt m c b.val = ∑ r : Fin 2048, rowAt m c (DFL.tileRow b r) := by
  have hb : b.val < cfg0.N := lt_of_lt_of_eq b.isLt N_0.symm
  rw [tileAt_of_lt m c b.val hb]
  unfold tileLoss
  refine Finset.sum_congr rfl fun r _ => ?_
  unfold rowAt
  rw [funext (blk0_apply m c ⟨b.val, hb⟩ r), funext (blk1_apply m c ⟨b.val, hb⟩ r), blk2_apply m c ⟨b.val, hb⟩ r]
  rfl

/-- A core's accumulator after its last point is the sum over its 256 tiles. -/
theorem core_total (c : Dev nD) (k : Fin 2) :
    DFL.runAcc (tileAt m c) (k.val * 256 + 255) = ∑ j : Fin 256, ∑ r : Fin 2048, rowAt m c (DFL.tileRow (DFL.coreTile k j) r) := by
  have hb := DFL.runAcc_block (tileAt m c) k.val 255 (by omega)
  rw [hb, Finset.sum_range]
  exact Finset.sum_congr rfl fun j _ => tileAt_eq m c (DFL.coreTile k j)

/-- THE KERNEL'S RESULT: all rows' losses, each the sum of its four sides, added to zero and divided. -/
theorem kernelResult_eq (c : Dev nD) : kernelResult m c = fun _ =>
    Ideal.div (DFL.zeroR + ∑ n : Fin 1048576, ∑ k : Fin 4,
      DFL.sideLoss (fun b => logits m c (ix2 n (DFL.seg k b))) (targets m c (ix2 n k)) (weights m c (ix2 n 0)))
      (Ideal.ofBits .f32 0x4A800000#32) := by
  funext i
  unfold kernelResult
  have h0 := core_total m c 0
  have h1 := core_total m c 1
  have e : DFL.runAcc (tileAt m c) 255 + DFL.runAcc (tileAt m c) 511 = ∑ n : Fin 1048576, rowAt m c n := by
    rw [DFL.sum_rows (rowAt m c), Fin.sum_univ_two]
    exact congrArg₂ (· + ·) h0 h1
  have hs : (∑ n : Fin 1048576, rowAt m c n) = ∑ n : Fin 1048576, ∑ k : Fin 4,
      DFL.sideLoss (fun b => logits m c (ix2 n (DFL.seg k b))) (targets m c (ix2 n k)) (weights m c (ix2 n 0)) :=
    Finset.sum_congr rfl fun n _ => by unfold rowAt; rw [DFL.rowLoss_eq_sum]
  rw [e, hs]

end Cert.KernelIdeal.Acc

end
-- ==== Proof.RefEval.lean ====
/-
  The reference's result, evaluated. The run of the reference leaves its result buffer at the fold of its eighty-six host
  operations over the launch contents. The twelve lists below are that operation list cut at eleven places (`ops_eq`): a
  cut after every reduction and at the few places where only a handful of buffers are still read later. The fold is
  evaluated stretch by stretch, each for an arbitrary incoming valuation that holds the staged values `val_…` of the
  buffers the stretch reads; a buffer a stretch does not write keeps its contents. Chained, the stretches leave the
  result buffer at the last stage, `val_main_v34` of the three arguments.
-/
import proofs.«122073_j13116830122188_1_alg».proof.Proof.RefRead
import Idealize.ShloMosaic.Lib.Pipeline.Frame
import Idealize.ShloMosaic.Lib.StableHlo.Run

noncomputable section

namespace Cert.ReferenceIdeal.Eval

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

-- a reduction is a fold over every index of its operand: it is compared by its arguments, never opened
attribute [local irreducible] Host.reduce

/-- Operations 1–9: the logits reshaped, the targets clipped. -/
abbrev Q1 : List (HloOp τ sig (Elt F)) :=
  [ reshape main_arg0 main_v0 rfl shapeCasts_S1048576x64_S1048576x4x16,
    nullary main_cst (constant S_ .f32 0x00000000#32),
    nullary main_c (constantI S_ 32 15#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S1048576x4, .f32⟩) main_call0_v1) (broadcastInDim S1048576x4 ![] bcast_S_S1048576x4),
    TRef.binary (TRef.of (T := ⟨S1048576x4, .f32⟩) main_call0_v1) (TRef.of (T := ⟨S1048576x4, .f32⟩) main_arg1) (TRef.of (T := ⟨S1048576x4, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S1048576x4, .f32⟩) main_call0_v4) (broadcastInDim S1048576x4 ![] bcast_S_S1048576x4),
    TRef.binary (TRef.of (T := ⟨S1048576x4, .f32⟩) main_call0_v4) (TRef.of (T := ⟨S1048576x4, .f32⟩) main_call0_v2) (TRef.of (T := ⟨S1048576x4, .f32⟩) main_v1) minimumf ]
/-- Operations 10–27: the bins and the weights. -/
abbrev Q2 : List (HloOp τ sig (Elt F)) :=
  [ unary main_v1 main_v2 (Host.floor : (⟨S1048576x4, .f32⟩ : BufTy).Contents (Elt F) → (⟨S1048576x4, .f32⟩ : BufTy).Contents (Elt F)),
    unary main_v2 main_v3 (fptosi 32 : (⟨S1048576x4, .f32⟩ : BufTy).Contents (Elt F) → (⟨S1048576x4, .i32⟩ : BufTy).Contents (Elt F)),
    nullary main_c_0 (constantI S_ 32 1#32),
    unary main_c_0 main_v4 (broadcastInDim S1048576x4 ![] bcast_S_S1048576x4 : (⟨S_, .i32⟩ : BufTy).Contents (Elt F) → (⟨S1048576x4, .i32⟩ : BufTy).Contents (Elt F)),
    binary main_v3 main_v4 main_v5 (addi : (⟨S1048576x4, .i32⟩ : BufTy).Contents (Elt F) → (⟨S1048576x4, .i32⟩ : BufTy).Contents (Elt F) → (⟨S1048576x4, .i32⟩ : BufTy).Contents (Elt F)),
    nullary main_c_1 (constantI S_ 32 0#32),
    nullary main_c_2 (constantI S_ 32 15#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S1048576x4, .i32⟩) main_call1_v1) (broadcastInDim S1048576x4 ![] bcast_S_S1048576x4),
    TRef.binary (TRef.of (T := ⟨S1048576x4, .i32⟩) main_call1_v1) (TRef.of (T := ⟨S1048576x4, .i32⟩) main_v5) (TRef.of (T := ⟨S1048576x4, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S1048576x4, .i32⟩) main_call1_v4) (broadcastInDim S1048576x4 ![] bcast_S_S1048576x4),
    TRef.binary (TRef.of (T := ⟨S1048576x4, .i32⟩) main_call1_v4) (TRef.of (T := ⟨S1048576x4, .i32⟩) main_call1_v2) (TRef.of (T := ⟨S1048576x4, .i32⟩) main_v6) minsi,
    unary main_v3 main_v7 (sitofp .f32 : (⟨S1048576x4, .i32⟩ : BufTy).Contents (Elt F) → (⟨S1048576x4, .f32⟩ : BufTy).Contents (Elt F)),
    binary main_v1 main_v7 main_v8 (subf : (⟨S1048576x4, .f32⟩ : BufTy).Contents (Elt F) → (⟨S1048576x4, .f32⟩ : BufTy).Contents (Elt F) → (⟨S1048576x4, .f32⟩ : BufTy).Contents (Elt F)),
    nullary main_cst_3 (constant S_ .f32 0x3F800000#32),
    unary main_cst_3 main_v9 (broadcastInDim S1048576x4 ![] bcast_S_S1048576x4 : (⟨S_, .f32⟩ : BufTy).Contents (Elt F) → (⟨S1048576x4, .f32⟩ : BufTy).Contents (Elt F)),
    binary main_v9 main_v8 main_v10 (subf : (⟨S1048576x4, .f32⟩ : BufTy).Contents (Elt F) → (⟨S1048576x4, .f32⟩ : BufTy).Contents (Elt F) → (⟨S1048576x4, .f32⟩ : BufTy).Contents (Elt F)) ]
/-- Operations 28–46: the two one-hot arrays and the two-hot label. -/
abbrev Q3 : List (HloOp τ sig (Elt F)) :=
  [ TRef.unary (TRef.of (T := ⟨S1048576x4, .i32⟩) main_v3) (TRef.of (T := ⟨S1048576x4x1, .i32⟩) main_call2_v0) (broadcastInDim S1048576x4x1 ![0, 1] bcast_S1048576x4_S1048576x4x1_0_1),
    TRef.nullary (TRef.of (T := ⟨S1x1x16, .i32⟩) main_call2_v1) (iotaInDim S1x1x16 32 2),
    TRef.unary (TRef.of (T := ⟨S1048576x4x1, .i32⟩) main_call2_v0) (TRef.of (T := ⟨S1048576x4x16, .i32⟩) main_call2_v2) (broadcastInDim S1048576x4x16 ![0, 1, 2] bcast_S1048576x4x1_S1048576x4x16_0_1_2),
    TRef.unary (TRef.of (T := ⟨S1x1x16, .i32⟩) main_call2_v1) (TRef.of (T := ⟨S1048576x4x16, .i32⟩) main_call2_v3) (broadcastInDim S1048576x4x16 ![0, 1, 2] bcast_S1x1x16_S1048576x4x16_0_1_2),
    TRef.binary (TRef.of (T := ⟨S1048576x4x16, .i32⟩) main_call2_v2) (TRef.of (T := ⟨S1048576x4x16, .i32⟩) main_call2_v3) (TRef.of (T := ⟨S1048576x4x16, .i1⟩) main_call2_v4) (cmpi .eq),
    TRef.unary (TRef.of (T := ⟨S1048576x4x16, .i1⟩) main_call2_v4) (TRef.of (T := ⟨S1048576x4x16, .f32⟩) main_v11) (uitofp .f32),
    TRef.unary (TRef.of (T := ⟨S1048576x4, .i32⟩) main_v6) (TRef.of (T := ⟨S1048576x4x1, .i32⟩) main_call3_v0) (broadcastInDim S1048576x4x1 ![0, 1] bcast_S1048576x4_S1048576x4x1_0_1),
    TRef.nullary (TRef.of (T := ⟨S1x1x16, .i32⟩) main_call3_v1) (iotaInDim S1x1x16 32 2),
    TRef.unary (TRef.of (T := ⟨S1048576x4x1, .i32⟩) main_call3_v0) (TRef.of (T := ⟨S1048576x4x16, .i32⟩) main_call3_v2) (broadcastInDim S1048576x4x16 ![0, 1, 2] bcast_S1048576x4x1_S1048576x4x16_0_1_2),
    TRef.unary (TRef.of (T := ⟨S1x1x16, .i32⟩) main_call3_v1) (TRef.of (T := ⟨S1048576x4x16, .i32⟩) main_call3_v3) (broadcastInDim S1048576x4x16 ![0, 1, 2] bcast_S1x1x16_S1048576x4x16_0_1_2),
    TRef.binary (TRef.of (T := ⟨S1048576x4x16, .i32⟩) main_call3_v2) (TRef.of (T := ⟨S1048576x4x16, .i32⟩) main_call3_v3) (TRef.of (T := ⟨S1048576x4x16, .i1⟩) main_call3_v4) (cmpi .eq),
    TRef.unary (TRef.of (T := ⟨S1048576x4x16, .i1⟩) main_call3_v4) (TRef.of (T := ⟨S1048576x4x16, .f32⟩) main_v12) (uitofp .f32),
    unary main_v10 main_v13 (broadcastInDim S1048576x4x1 ![0, 1] bcast_S1048576x4_S1048576x4x1_0_1 : (⟨S1048576x4, .f32⟩ : BufTy).Contents (Elt F) → (⟨S1048576x4x1, .f32⟩ : BufTy).Contents (Elt F)),
    unary main_v13 main_v14 (broadcastInDim S1048576x4x16 ![0, 1, 2] bcast_S1048576x4x1_S1048576x4x16_0_1_2 : (⟨S1048576x4x1, .f32⟩ : BufTy).Contents (Elt F) → (⟨S1048576x4x16, .f32⟩ : BufTy).Contents (Elt F)),
    binary main_v11 main_v14 main_v15 (mulf : (⟨S1048576x4x16, .f32⟩ : BufTy).Contents (Elt F) → (⟨S1048576x4x16, .f32⟩ : BufTy).Contents (Elt F) → (⟨S1048576x4x16, .f32⟩ : BufTy).Contents (Elt F)),
    unary main_v8 main_v16 (broadcastInDim S1048576x4x1 ![0, 1] bcast_S1048576x4_S1048576x4x1_0_1 : (⟨S1048576x4, .f32⟩ : BufTy).Contents (Elt F) → (⟨S1048576x4x1, .f32⟩ : BufTy).Contents (Elt F)),
    unary main_v16 main_v17 (broadcastInDim S1048576x4x16 ![0, 1, 2] bcast_S1048576x4x1_S1048576x4x16_0_1_2 : (⟨S1048576x4x1, .f32⟩ : BufTy).Contents (Elt F) → (⟨S1048576x4x16, .f32⟩ : BufTy).Contents (Elt F)),
    binary main_v12 main_v17 main_v18 (mulf : (⟨S1048576x4x16, .f32⟩ : BufTy).Contents (Elt F) → (⟨S1048576x4x16, .f32⟩ : BufTy).Contents (Elt F) → (⟨S1048576x4x16, .f32⟩ : BufTy).Contents (Elt F)),
    binary main_v15 main_v18 main_v19 (addf : (⟨S1048576x4x16, .f32⟩ : BufTy).Contents (Elt F) → (⟨S1048576x4x16, .f32⟩ : BufTy).Contents (Elt F) → (⟨S1048576x4x16, .f32⟩ : BufTy).Contents (Elt F)) ]
/-- Operations 47–48: each side's largest logit. -/
abbrev Q4 : List (HloOp τ sig (Elt F)) :=
  [ TRef.nullary (TRef.of (T := ⟨S_, .f32⟩) main_call4_cst) (constant S_ .f32 0xFF800000#32),
    TRef.binary (TRef.of (T := ⟨S1048576x4x16, .f32⟩) main_v0) (TRef.of (T := ⟨S_, .f32⟩) main_call4_cst) (TRef.of (T := ⟨S1048576x4, .f32⟩) main_call4_v0) (fun x v => Host.reduce FloatOps.maximumf x v reducesTo_S1048576x4x16_S1048576x4_d2 h_S_) ]
/-- Operations 49–55: the shifted logits and their exponentials. -/
abbrev Q5 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S1048576x4, .f32⟩) main_call4_v1) (broadcastInDim S1048576x4 ![] bcast_S_S1048576x4),
    TRef.binary (TRef.of (T := ⟨S1048576x4, .f32⟩) main_call4_v1) (TRef.of (T := ⟨S1048576x4, .f32⟩) main_call4_v0) (TRef.of (T := ⟨S1048576x4, .f32⟩) main_call4_v2) maximumf,
    TRef.unary (TRef.of (T := ⟨S1048576x4, .f32⟩) main_call4_v2) (TRef.of (T := ⟨S1048576x4x1, .f32⟩) main_call4_v3) (broadcastInDim S1048576x4x1 ![0, 1] bcast_S1048576x4_S1048576x4x1_0_1),
    TRef.unary (TRef.of (T := ⟨S1048576x4x1, .f32⟩) main_call4_v3) (TRef.of (T := ⟨S1048576x4x16, .f32⟩) main_call4_v4) (broadcastInDim S1048576x4x16 ![0, 1, 2] bcast_S1048576x4x1_S1048576x4x16_0_1_2),
    TRef.binary (TRef.of (T := ⟨S1048576x4x16, .f32⟩) main_v0) (TRef.of (T := ⟨S1048576x4x16, .f32⟩) main_call4_v4) (TRef.of (T := ⟨S1048576x4x16, .f32⟩) main_call4_v5) subf,
    TRef.unary (TRef.of (T := ⟨S1048576x4x16, .f32⟩) main_call4_v5) (TRef.of (T := ⟨S1048576x4x16, .f32⟩) main_call4_v6) Host.exp ]
/-- Operations 56–57: each side's sum of exponentials. -/
abbrev Q6 : List (HloOp τ sig (Elt F)) :=
  [ TRef.nullary (TRef.of (T := ⟨S_, .f32⟩) main_call4_cst_1) (constant S_ .f32 0x00000000#32),
    TRef.binary (TRef.of (T := ⟨S1048576x4x16, .f32⟩) main_call4_v6) (TRef.of (T := ⟨S_, .f32⟩) main_call4_cst_1) (TRef.of (T := ⟨S1048576x4, .f32⟩) main_call4_v7) (fun x v => Host.reduceAdd x v reducesTo_S1048576x4x16_S1048576x4_d2 h_S_) ]
/-- Operations 58–61: the log-softmax. -/
abbrev Q7 : List (HloOp τ sig (Elt F)) :=
  [ TRef.unary (TRef.of (T := ⟨S1048576x4, .f32⟩) main_call4_v7) (TRef.of (T := ⟨S1048576x4x1, .f32⟩) main_call4_v8) (broadcastInDim S1048576x4x1 ![0, 1] bcast_S1048576x4_S1048576x4x1_0_1),
    TRef.unary (TRef.of (T := ⟨S1048576x4x1, .f32⟩) main_call4_v8) (TRef.of (T := ⟨S1048576x4x1, .f32⟩) main_call4_v9) Host.log,
    TRef.unary (TRef.of (T := ⟨S1048576x4x1, .f32⟩) main_call4_v9) (TRef.of (T := ⟨S1048576x4x16, .f32⟩) main_call4_v10) (broadcastInDim S1048576x4x16 ![0, 1, 2] bcast_S1048576x4x1_S1048576x4x16_0_1_2),
    TRef.binary (TRef.of (T := ⟨S1048576x4x16, .f32⟩) main_call4_v5) (TRef.of (T := ⟨S1048576x4x16, .f32⟩) main_call4_v10) (TRef.of (T := ⟨S1048576x4x16, .f32⟩) main_v20) subf ]
/-- Operations 62–78: the Kullback–Leibler terms. -/
abbrev Q8 : List (HloOp τ sig (Elt F)) :=
  [ nullary main_cst_4 (constant S_ .f32 0x00000000#32),
    unary main_cst_4 main_v21 (broadcastInDim S1048576x4x16 ![] bcast_S_S1048576x4x16 : (⟨S_, .f32⟩ : BufTy).Contents (Elt F) → (⟨S1048576x4x16, .f32⟩ : BufTy).Contents (Elt F)),
    binary main_v19 main_v21 main_v22 (cmpf .ogt : (⟨S1048576x4x16, .f32⟩ : BufTy).Contents (Elt F) → (⟨S1048576x4x16, .f32⟩ : BufTy).Contents (Elt F) → (⟨S1048576x4x16, .i1⟩ : BufTy).Contents (Elt F)),
    nullary main_cst_5 (constant S_ .f32 0x3F800000#32),
    TRef.unary (TRef.of (T := ⟨S_, .f32⟩) main_cst_5) (TRef.of (T := ⟨S_, .f32⟩) main_call5_v0) id,
    TRef.unary (TRef.of (T := ⟨S_, .f32⟩) main_call5_v0) (TRef.of (T := ⟨S1048576x4x16, .f32⟩) main_call5_v1) (broadcastInDim S1048576x4x16 ![] bcast_S_S1048576x4x16),
    TRef.ternary (TRef.of (T := ⟨S1048576x4x16, .i1⟩) main_v22) (TRef.of (T := ⟨S1048576x4x16, .f32⟩) main_v19) (TRef.of (T := ⟨S1048576x4x16, .f32⟩) main_call5_v1) (TRef.of (T := ⟨S1048576x4x16, .f32⟩) main_v23) select,
    unary main_v23 main_v24 (Host.log : (⟨S1048576x4x16, .f32⟩ : BufTy).Contents (Elt F) → (⟨S1048576x4x16, .f32⟩ : BufTy).Contents (Elt F)),
    nullary main_cst_6 (constant S_ .f32 0x00000000#32),
    unary main_cst_6 main_v25 (broadcastInDim S1048576x4x16 ![] bcast_S_S1048576x4x16 : (⟨S_, .f32⟩ : BufTy).Contents (Elt F) → (⟨S1048576x4x16, .f32⟩ : BufTy).Contents (Elt F)),
    binary main_v19 main_v25 main_v26 (cmpf .ogt : (⟨S1048576x4x16, .f32⟩ : BufTy).Contents (Elt F) → (⟨S1048576x4x16, .f32⟩ : BufTy).Contents (Elt F) → (⟨S1048576x4x16, .i1⟩ : BufTy).Contents (Elt F)),
    binary main_v24 main_v20 main_v27 (subf : (⟨S1048576x4x16, .f32⟩ : BufTy).Contents (Elt F) → (⟨S1048576x4x16, .f32⟩ : BufTy).Contents (Elt F) → (⟨S1048576x4x16, .f32⟩ : BufTy).Contents (Elt F)),
    binary main_v19 main_v27 main_v28 (mulf : (⟨S1048576x4x16, .f32⟩ : BufTy).Contents (Elt F) → (⟨S1048576x4x16, .f32⟩ : BufTy).Contents (Elt F) → (⟨S1048576x4x16, .f32⟩ : BufTy).Contents (Elt F)),
    nullary main_cst_7 (constant S_ .f32 0x00000000#32),
    TRef.unary (TRef.of (T := ⟨S_, .f32⟩) main_cst_7) (TRef.of (T := ⟨S_, .f32⟩) main_call6_v0) id,
    TRef.unary (TRef.of (T := ⟨S_, .f32⟩) main_call6_v0) (TRef.of (T := ⟨S1048576x4x16, .f32⟩) main_call6_v1) (broadcastInDim S1048576x4x16 ![] bcast_S_S1048576x4x16),
    TRef.ternary (TRef.of (T := ⟨S1048576x4x16, .i1⟩) main_v26) (TRef.of (T := ⟨S1048576x4x16, .f32⟩) main_v28) (TRef.of (T := ⟨S1048576x4x16, .f32⟩) main_call6_v1) (TRef.of (T := ⟨S1048576x4x16, .f32⟩) main_v29) select ]
/-- Operations 79–80: each side's sum of terms. -/
abbrev Q9 : List (HloOp τ sig (Elt F)) :=
  [ nullary main_cst_8 (constant S_ .f32 0x00000000#32),
    binary main_v29 main_cst_8 main_v30 ((fun x v => Host.reduceAdd x v reducesTo_S1048576x4x16_S1048576x4_d2 h_S_) : (⟨S1048576x4x16, .f32⟩ : BufTy).Contents (Elt F) → (⟨S_, .f32⟩ : BufTy).Contents (Elt F) → (⟨S1048576x4, .f32⟩ : BufTy).Contents (Elt F)) ]
/-- Operations 81–82: the weighting. -/
abbrev Q10 : List (HloOp τ sig (Elt F)) :=
  [ unary main_arg2 main_v31 (broadcastInDim S1048576x4 ![0, 1] bcast_S1048576x1_S1048576x4_0_1 : (⟨S1048576x1, .f32⟩ : BufTy).Contents (Elt F) → (⟨S1048576x4, .f32⟩ : BufTy).Contents (Elt F)),
    binary main_v30 main_v31 main_v32 (mulf : (⟨S1048576x4, .f32⟩ : BufTy).Contents (Elt F) → (⟨S1048576x4, .f32⟩ : BufTy).Contents (Elt F) → (⟨S1048576x4, .f32⟩ : BufTy).Contents (Elt F)) ]
/-- Operations 83–84: the total. -/
abbrev Q11 : List (HloOp τ sig (Elt F)) :=
  [ nullary main_cst_9 (constant S_ .f32 0x00000000#32),
    binary main_v32 main_cst_9 main_v33 ((fun x v => Host.reduceAdd x v reducesTo_S1048576x4_S_d0_1 h_S_) : (⟨S1048576x4, .f32⟩ : BufTy).Contents (Elt F) → (⟨S_, .f32⟩ : BufTy).Contents (Elt F) → (⟨S_, .f32⟩ : BufTy).Contents (Elt F)) ]
/-- Operations 85–86: the mean. -/
abbrev Q12 : List (HloOp τ sig (Elt F)) :=
  [ nullary main_cst_10 (constant S_ .f32 0x4A800000#32),
    binary main_v33 main_cst_10 main_v34 (Host.divf : (⟨S_, .f32⟩ : BufTy).Contents (Elt F) → (⟨S_, .f32⟩ : BufTy).Contents (Elt F) → (⟨S_, .f32⟩ : BufTy).Contents (Elt F)) ]

set_option maxRecDepth 8192 in
theorem ops_eq : Cert.ReferenceIdeal.ValueP.ops (F := F) = Q1 ++ (Q2 ++ (Q3 ++ (Q4 ++ (Q5 ++ (Q6 ++ (Q7 ++ (Q8 ++ (Q9 ++ (Q10 ++ (Q11 ++ (Q12))))))))))) := rfl

/-! ## Q1: the logits reshaped, the targets clipped -/

theorem q1_v0 (W : Valuation τ sig (Elt F)) (x0 : (⟨S1048576x64, .f32⟩ : BufTy).Contents (Elt F)) (h0 : W (Proc.devRef .tc main_arg0) = x0) :
    after (Q1 (F := F)) W (Proc.devRef .tc main_v0) = val_main_v0 (F := F) x0 := by
  after_results_simp
  try simp only [TRef.ofBuf, TRef.toBuf, cast_eq]
  rw [h0]
  rfl
theorem q1_v1 (W : Valuation τ sig (Elt F)) (x1 : (⟨S1048576x4, .f32⟩ : BufTy).Contents (Elt F)) (h0 : W (Proc.devRef .tc main_arg1) = x1) :
    after (Q1 (F := F)) W (Proc.devRef .tc main_v1) = val_main_v1 (F := F) x1 := by
  after_results_simp
  try simp only [TRef.ofBuf, TRef.toBuf, cast_eq]
  rw [h0]
  rfl
theorem q1_keep_arg2 (W : Valuation τ sig (Elt F)) : after (Q1 (F := F)) W (Proc.devRef .tc main_arg2) = W (Proc.devRef .tc main_arg2) := by
  after_results_simp

/-! ## Q2: the bins and the weights -/

theorem q2_v3 (W : Valuation τ sig (Elt F)) (x1 : (⟨S1048576x4, .f32⟩ : BufTy).Contents (Elt F)) (h0 : W (Proc.devRef .tc main_v1) = val_main_v1 (F := F) x1) :
    after (Q2 (F := F)) W (Proc.devRef .tc main_v3) = val_main_v3 (F := F) x1 := by
  after_results_simp
  try simp only [TRef.ofBuf, TRef.toBuf, cast_eq]
  rw [h0]
  rfl
theorem q2_v6 (W : Valuation τ sig (Elt F)) (x1 : (⟨S1048576x4, .f32⟩ : BufTy).Contents (Elt F)) (h0 : W (Proc.devRef .tc main_v1) = val_main_v1 (F := F) x1) :
    after (Q2 (F := F)) W (Proc.devRef .tc main_v6) = val_main_v6 (F := F) x1 := by
  after_results_simp
  try simp only [TRef.ofBuf, TRef.toBuf, cast_eq]
  rw [h0]
  rfl
theorem q2_v8 (W : Valuation τ sig (Elt F)) (x1 : (⟨S1048576x4, .f32⟩ : BufTy).Contents (Elt F)) (h0 : W (Proc.devRef .tc main_v1) = val_main_v1 (F := F) x1) :
    after (Q2 (F := F)) W (Proc.devRef .tc main_v8) = val_main_v8 (F := F) x1 := by
  after_results_simp
  try simp only [TRef.ofBuf, TRef.toBuf, cast_eq]
  rw [h0]
  rfl
theorem q2_v10 (W : Valuation τ sig (Elt F)) (x1 : (⟨S1048576x4, .f32⟩ : BufTy).Contents (Elt F)) (h0 : W (Proc.devRef .tc main_v1) = val_main_v1 (F := F) x1) :
    after (Q2 (F := F)) W (Proc.devRef .tc main_v10) = val_main_v10 (F := F) x1 := by
  after_results_simp
  try simp only [TRef.ofBuf, TRef.toBuf, cast_eq]
  rw [h0]
  rfl
theorem q2_keep_v0 (W : Valuation τ sig (Elt F)) : after (Q2 (F := F)) W (Proc.devRef .tc main_v0) = W (Proc.devRef .tc main_v0) := by
  after_results_simp
theorem q2_keep_arg2 (W : Valuation τ sig (Elt F)) : after (Q2 (F := F)) W (Proc.devRef .tc main_arg2) = W (Proc.devRef .tc main_arg2) := by
  after_results_simp

/-! ## Q3: the two one-hot arrays and the two-hot label -/

theorem q3_v19 (W : Valuation τ sig (Elt F)) (x1 : (⟨S1048576x4, .f32⟩ : BufTy).Contents (Elt F)) (h0 : W (Proc.devRef .tc main_v3) = val_main_v3 (F := F) x1) (h1 : W (Proc.devRef .tc main_v6) = val_main_v6 (F := F) x1) (h2 : W (Proc.devRef .tc main_v8) = val_main_v8 (F := F) x1) (h3 : W (Proc.devRef .tc main_v10) = val_main_v10 (F := F) x1) :
    after (Q3 (F := F)) W (Proc.devRef .tc main_v19) = val_main_v19 (F := F) x1 := by
  after_results_simp
  try simp only [TRef.ofBuf, TRef.toBuf, cast_eq]
  rw [h0, h1, h2, h3]
  rfl
theorem q3_keep_v0 (W : Valuation τ sig (Elt F)) : after (Q3 (F := F)) W (Proc.devRef .tc main_v0) = W (Proc.devRef .tc main_v0) := by
  after_results_simp
theorem q3_keep_arg2 (W : Valuation τ sig (Elt F)) : after (Q3 (F := F)) W (Proc.devRef .tc main_arg2) = W (Proc.devRef .tc main_arg2) := by
  after_results_simp

/-! ## Q4: each side's largest logit -/

theorem q4_call4_v0 (W : Valuation τ sig (Elt F)) (x0 : (⟨S1048576x64, .f32⟩ : BufTy).Contents (Elt F)) (h0 : W (Proc.devRef .tc main_v0) = val_main_v0 (F := F) x0) :
    after (Q4 (F := F)) W (Proc.devRef .tc main_call4_v0) = val_main_call4_v0 (F := F) x0 := by
  after_results_simp
  try simp only [TRef.ofBuf, TRef.toBuf, cast_eq]
  rw [h0]
  rfl
theorem q4_keep_v0 (W : Valuation τ sig (Elt F)) : after (Q4 (F := F)) W (Proc.devRef .tc main_v0) = W (Proc.devRef .tc main_v0) := by
  after_results_simp
theorem q4_keep_v19 (W : Valuation τ sig (Elt F)) : after (Q4 (F := F)) W (Proc.devRef .tc main_v19) = W (Proc.devRef .tc main_v19) := by
  after_results_simp
theorem q4_keep_arg2 (W : Valuation τ sig (Elt F)) : after (Q4 (F := F)) W (Proc.devRef .tc main_arg2) = W (Proc.devRef .tc main_arg2) := by
  after_results_simp

/-! ## Q5: the shifted logits and their exponentials -/

theorem q5_call4_v5 (W : Valuation τ sig (Elt F)) (x0 : (⟨S1048576x64, .f32⟩ : BufTy).Contents (Elt F)) (h0 : W (Proc.devRef .tc main_v0) = val_main_v0 (F := F) x0) (h1 : W (Proc.devRef .tc main_call4_v0) = val_main_call4_v0 (F := F) x0) :
    after (Q5 (F := F)) W (Proc.devRef .tc main_call4_v5) = val_main_call4_v5 (F := F) x0 := by
  after_results_simp
  try simp only [TRef.ofBuf, TRef.toBuf, cast_eq]
  rw [h0, h1]
  rfl
theorem q5_call4_v6 (W : Valuation τ sig (Elt F)) (x0 : (⟨S1048576x64, .f32⟩ : BufTy).Contents (Elt F)) (h0 : W (Proc.devRef .tc main_v0) = val_main_v0 (F := F) x0) (h1 : W (Proc.devRef .tc main_call4_v0) = val_main_call4_v0 (F := F) x0) :
    after (Q5 (F := F)) W (Proc.devRef .tc main_call4_v6) = val_main_call4_v6 (F := F) x0 := by
  after_results_simp
  try simp only [TRef.ofBuf, TRef.toBuf, cast_eq]
  rw [h0, h1]
  rfl
theorem q5_keep_v19 (W : Valuation τ sig (Elt F)) : after (Q5 (F := F)) W (Proc.devRef .tc main_v19) = W (Proc.devRef .tc main_v19) := by
  after_results_simp
theorem q5_keep_arg2 (W : Valuation τ sig (Elt F)) : after (Q5 (F := F)) W (Proc.devRef .tc main_arg2) = W (Proc.devRef .tc main_arg2) := by
  after_results_simp

/-! ## Q6: each side's sum of exponentials -/

theorem q6_call4_v7 (W : Valuation τ sig (Elt F)) (x0 : (⟨S1048576x64, .f32⟩ : BufTy).Contents (Elt F)) (h0 : W (Proc.devRef .tc main_call4_v6) = val_main_call4_v6 (F := F) x0) :
    after (Q6 (F := F)) W (Proc.devRef .tc main_call4_v7) = val_main_call4_v7 (F := F) x0 := by
  after_results_simp
  try simp only [TRef.ofBuf, TRef.toBuf, cast_eq]
  rw [h0]
  rfl
theorem q6_keep_call4_v5 (W : Valuation τ sig (Elt F)) : after (Q6 (F := F)) W (Proc.devRef .tc main_call4_v5) = W (Proc.devRef .tc main_call4_v5) := by
  after_results_simp
theorem q6_keep_v19 (W : Valuation τ sig (Elt F)) : after (Q6 (F := F)) W (Proc.devRef .tc main_v19) = W (Proc.devRef .tc main_v19) := by
  after_results_simp
theorem q6_keep_arg2 (W : Valuation τ sig (Elt F)) : after (Q6 (F := F)) W (Proc.devRef .tc main_arg2) = W (Proc.devRef .tc main_arg2) := by
  after_results_simp

/-! ## Q7: the log-softmax -/

theorem q7_v20 (W : Valuation τ sig (Elt F)) (x0 : (⟨S1048576x64, .f32⟩ : BufTy).Contents (Elt F)) (h0 : W (Proc.devRef .tc main_call4_v5) = val_main_call4_v5 (F := F) x0) (h1 : W (Proc.devRef .tc main_call4_v7) = val_main_call4_v7 (F := F) x0) :
    after (Q7 (F := F)) W (Proc.devRef .tc main_v20) = val_main_v20 (F := F) x0 := by
  after_results_simp
  try simp only [TRef.ofBuf, TRef.toBuf, cast_eq]
  rw [h0, h1]
  rfl
theorem q7_keep_v19 (W : Valuation τ sig (Elt F)) : after (Q7 (F := F)) W (Proc.devRef .tc main_v19) = W (Proc.devRef .tc main_v19) := by
  after_results_simp
theorem q7_keep_arg2 (W : Valuation τ sig (Elt F)) : after (Q7 (F := F)) W (Proc.devRef .tc main_arg2) = W (Proc.devRef .tc main_arg2) := by
  after_results_simp

/-! ## Q8: the Kullback–Leibler terms -/

theorem q8_v29 (W : Valuation τ sig (Elt F)) (x0 : (⟨S1048576x64, .f32⟩ : BufTy).Contents (Elt F)) (x1 : (⟨S1048576x4, .f32⟩ : BufTy).Contents (Elt F)) (h0 : W (Proc.devRef .tc main_v19) = val_main_v19 (F := F) x1) (h1 : W (Proc.devRef .tc main_v20) = val_main_v20 (F := F) x0) :
    after (Q8 (F := F)) W (Proc.devRef .tc main_v29) = val_main_v29 (F := F) x0 x1 := by
  after_results_simp
  try simp only [TRef.ofBuf, TRef.toBuf, cast_eq]
  rw [h0, h1]
  rfl
theorem q8_keep_arg2 (W : Valuation τ sig (Elt F)) : after (Q8 (F := F)) W (Proc.devRef .tc main_arg2) = W (Proc.devRef .tc main_arg2) := by
  after_results_simp

/-! ## Q9: each side's sum of terms -/

theorem q9_v30 (W : Valuation τ sig (Elt F)) (x0 : (⟨S1048576x64, .f32⟩ : BufTy).Contents (Elt F)) (x1 : (⟨S1048576x4, .f32⟩ : BufTy).Contents (Elt F)) (h0 : W (Proc.devRef .tc main_v29) = val_main_v29 (F := F) x0 x1) :
    after (Q9 (F := F)) W (Proc.devRef .tc main_v30) = val_main_v30 (F := F) x0 x1 := by
  after_results_simp
  try simp only [TRef.ofBuf, TRef.toBuf, cast_eq]
  rw [h0]
  rfl
theorem q9_keep_arg2 (W : Valuation τ sig (Elt F)) : after (Q9 (F := F)) W (Proc.devRef .tc main_arg2) = W (Proc.devRef .tc main_arg2) := by
  after_results_simp

/-! ## Q10: the weighting -/

theorem q10_v32 (W : Valuation τ sig (Elt F)) (x0 : (⟨S1048576x64, .f32⟩ : BufTy).Contents (Elt F)) (x1 : (⟨S1048576x4, .f32⟩ : BufTy).Contents (Elt F)) (x2 : (⟨S1048576x1, .f32⟩ : BufTy).Contents (Elt F)) (h0 : W (Proc.devRef .tc main_v30) = val_main_v30 (F := F) x0 x1) (h1 : W (Proc.devRef .tc main_arg2) = x2) :
    after (Q10 (F := F)) W (Proc.devRef .tc main_v32) = val_main_v32 (F := F) x0 x1 x2 := by
  after_results_simp
  try simp only [TRef.ofBuf, TRef.toBuf, cast_eq]
  rw [h0, h1]
  rfl

/-! ## Q11: the total -/

theorem q11_v33 (W : Valuation τ sig (Elt F)) (x0 : (⟨S1048576x64, .f32⟩ : BufTy).Contents (Elt F)) (x1 : (⟨S1048576x4, .f32⟩ : BufTy).Contents (Elt F)) (x2 : (⟨S1048576x1, .f32⟩ : BufTy).Contents (Elt F)) (h0 : W (Proc.devRef .tc main_v32) = val_main_v32 (F := F) x0 x1 x2) :
    after (Q11 (F := F)) W (Proc.devRef .tc main_v33) = val_main_v33 (F := F) x0 x1 x2 := by
  after_results_simp
  try simp only [TRef.ofBuf, TRef.toBuf, cast_eq]
  rw [h0]
  rfl

/-! ## Q12: the mean -/

theorem q12_v34 (W : Valuation τ sig (Elt F)) (x0 : (⟨S1048576x64, .f32⟩ : BufTy).Contents (Elt F)) (x1 : (⟨S1048576x4, .f32⟩ : BufTy).Contents (Elt F)) (x2 : (⟨S1048576x1, .f32⟩ : BufTy).Contents (Elt F)) (h0 : W (Proc.devRef .tc main_v33) = val_main_v33 (F := F) x0 x1 x2) :
    after (Q12 (F := F)) W (Proc.devRef .tc main_v34) = val_main_v34 (F := F) x0 x1 x2 := by
  after_results_simp
  try simp only [TRef.ofBuf, TRef.toBuf, cast_eq]
  rw [h0]
  rfl

/-! ## The whole fold -/

/-- The fold of the reference's operations over the launch contents leaves the result buffer at the last stage. -/
theorem result_eq (m : (ℓ : Loc nD τ sig) → Buf (Elt F) ℓ) (c : Dev nD) :
    after (Cert.ReferenceIdeal.ValueP.ops (F := F)) (launchContents m c) (Proc.devRef .tc main_v34)
      = val_main_v34 (F := F) (m ((c.tc : Thread nD τ).loc main_arg0)) (m ((c.tc : Thread nD τ).loc main_arg1)) (m ((c.tc : Thread nD τ).loc main_arg2)) := by
  rw [ops_eq, StableHlo.after_append, StableHlo.after_append, StableHlo.after_append, StableHlo.after_append, StableHlo.after_append, StableHlo.after_append, StableHlo.after_append, StableHlo.after_append, StableHlo.after_append, StableHlo.after_append, StableHlo.after_append]
  generalize hx0 : m ((c.tc : Thread nD τ).loc main_arg0) = x0
  generalize hx1 : m ((c.tc : Thread nD τ).loc main_arg1) = x1
  generalize hx2 : m ((c.tc : Thread nD τ).loc main_arg2) = x2
  have g0_arg0 : launchContents m c (Proc.devRef .tc main_arg0) = x0 := hx0
  have g0_arg1 : launchContents m c (Proc.devRef .tc main_arg1) = x1 := hx1
  have g0_arg2 : launchContents m c (Proc.devRef .tc main_arg2) = x2 := hx2
  have g1_v0 : after (Q1 (F := F)) (launchContents m c) (Proc.devRef .tc main_v0) = val_main_v0 (F := F) x0 :=
    q1_v0 _ x0 g0_arg0
  have g1_v1 : after (Q1 (F := F)) (launchContents m c) (Proc.devRef .tc main_v1) = val_main_v1 (F := F) x1 :=
    q1_v1 _ x1 g0_arg1
  have g1_arg2 : after (Q1 (F := F)) (launchContents m c) (Proc.devRef .tc main_arg2) = x2 :=
    (q1_keep_arg2 _).trans g0_arg2
  have g2_v3 : after (Q2 (F := F)) (after (Q1 (F := F)) (launchContents m c)) (Proc.devRef .tc main_v3) = val_main_v3 (F := F) x1 :=
    q2_v3 _ x1 g1_v1
  have g2_v6 : after (Q2 (F := F)) (after (Q1 (F := F)) (launchContents m c)) (Proc.devRef .tc main_v6) = val_main_v6 (F := F) x1 :=
    q2_v6 _ x1 g1_v1
  have g2_v8 : after (Q2 (F := F)) (after (Q1 (F := F)) (launchContents m c)) (Proc.devRef .tc main_v8) = val_main_v8 (F := F) x1 :=
    q2_v8 _ x1 g1_v1
  have g2_v10 : after (Q2 (F := F)) (after (Q1 (F := F)) (launchContents m c)) (Proc.devRef .tc main_v10) = val_main_v10 (F := F) x1 :=
    q2_v10 _ x1 g1_v1
  have g2_v0 : after (Q2 (F := F)) (after (Q1 (F := F)) (launchContents m c)) (Proc.devRef .tc main_v0) = val_main_v0 (F := F) x0 :=
    (q2_keep_v0 _).trans g1_v0
  have g2_arg2 : after (Q2 (F := F)) (after (Q1 (F := F)) (launchContents m c)) (Proc.devRef .tc main_arg2) = x2 :=
    (q2_keep_arg2 _).trans g1_arg2
  have g3_v19 : after (Q3 (F := F)) (after (Q2 (F := F)) (after (Q1 (F := F)) (launchContents m c))) (Proc.devRef .tc main_v19) = val_main_v19 (F := F) x1 :=
    q3_v19 _ x1 g2_v3 g2_v6 g2_v8 g2_v10
  have g3_v0 : after (Q3 (F := F)) (after (Q2 (F := F)) (after (Q1 (F := F)) (launchContents m c))) (Proc.devRef .tc main_v0) = val_main_v0 (F := F) x0 :=
    (q3_keep_v0 _).trans g2_v0
  have g3_arg2 : after (Q3 (F := F)) (after (Q2 (F := F)) (after (Q1 (F := F)) (launchContents m c))) (Proc.devRef .tc main_arg2) = x2 :=
    (q3_keep_arg2 _).trans g2_arg2
  have g4_call4_v0 : after (Q4 (F := F)) (after (Q3 (F := F)) (after (Q2 (F := F)) (after (Q1 (F := F)) (launchContents m c)))) (Proc.devRef .tc main_call4_v0) = val_main_call4_v0 (F := F) x0 :=
    q4_call4_v0 _ x0 g3_v0
  have g4_v0 : after (Q4 (F := F)) (after (Q3 (F := F)) (after (Q2 (F := F)) (after (Q1 (F := F)) (launchContents m c)))) (Proc.devRef .tc main_v0) = val_main_v0 (F := F) x0 :=
    (q4_keep_v0 _).trans g3_v0
  have g4_v19 : after (Q4 (F := F)) (after (Q3 (F := F)) (after (Q2 (F := F)) (after (Q1 (F := F)) (launchContents m c)))) (Proc.devRef .tc main_v19) = val_main_v19 (F := F) x1 :=
    (q4_keep_v19 _).trans g3_v19
  have g4_arg2 : after (Q4 (F := F)) (after (Q3 (F := F)) (after (Q2 (F := F)) (after (Q1 (F := F)) (launchContents m c)))) (Proc.devRef .tc main_arg2) = x2 :=
    (q4_keep_arg2 _).trans g3_arg2
  have g5_call4_v5 : after (Q5 (F := F)) (after (Q4 (F := F)) (after (Q3 (F := F)) (after (Q2 (F := F)) (after (Q1 (F := F)) (launchContents m c))))) (Proc.devRef .tc main_call4_v5) = val_main_call4_v5 (F := F) x0 :=
    q5_call4_v5 _ x0 g4_v0 g4_call4_v0
  have g5_call4_v6 : after (Q5 (F := F)) (after (Q4 (F := F)) (after (Q3 (F := F)) (after (Q2 (F := F)) (after (Q1 (F := F)) (launchContents m c))))) (Proc.devRef .tc main_call4_v6) = val_main_call4_v6 (F := F) x0 :=
    q5_call4_v6 _ x0 g4_v0 g4_call4_v0
  have g5_v19 : after (Q5 (F := F)) (after (Q4 (F := F)) (after (Q3 (F := F)) (after (Q2 (F := F)) (after (Q1 (F := F)) (launchContents m c))))) (Proc.devRef .tc main_v19) = val_main_v19 (F := F) x1 :=
    (q5_keep_v19 _).trans g4_v19
  have g5_arg2 : after (Q5 (F := F)) (after (Q4 (F := F)) (after (Q3 (F := F)) (after (Q2 (F := F)) (after (Q1 (F := F)) (launchContents m c))))) (Proc.devRef .tc main_arg2) = x2 :=
    (q5_keep_arg2 _).trans g4_arg2
  have g6_call4_v7 : after (Q6 (F := F)) (after (Q5 (F := F)) (after (Q4 (F := F)) (after (Q3 (F := F)) (after (Q2 (F := F)) (after (Q1 (F := F)) (launchContents m c)))))) (Proc.devRef .tc main_call4_v7) = val_main_call4_v7 (F := F) x0 :=
    q6_call4_v7 _ x0 g5_call4_v6
  have g6_call4_v5 : after (Q6 (F := F)) (after (Q5 (F := F)) (after (Q4 (F := F)) (after (Q3 (F := F)) (after (Q2 (F := F)) (after (Q1 (F := F)) (launchContents m c)))))) (Proc.devRef .tc main_call4_v5) = val_main_call4_v5 (F := F) x0 :=
    (q6_keep_call4_v5 _).trans g5_call4_v5
  have g6_v19 : after (Q6 (F := F)) (after (Q5 (F := F)) (after (Q4 (F := F)) (after (Q3 (F := F)) (after (Q2 (F := F)) (after (Q1 (F := F)) (launchContents m c)))))) (Proc.devRef .tc main_v19) = val_main_v19 (F := F) x1 :=
    (q6_keep_v19 _).trans g5_v19
  have g6_arg2 : after (Q6 (F := F)) (after (Q5 (F := F)) (after (Q4 (F := F)) (after (Q3 (F := F)) (after (Q2 (F := F)) (after (Q1 (F := F)) (launchContents m c)))))) (Proc.devRef .tc main_arg2) = x2 :=
    (q6_keep_arg2 _).trans g5_arg2
  have g7_v20 : after (Q7 (F := F)) (after (Q6 (F := F)) (after (Q5 (F := F)) (after (Q4 (F := F)) (after (Q3 (F := F)) (after (Q2 (F := F)) (after (Q1 (F := F)) (launchContents m c))))))) (Proc.devRef .tc main_v20) = val_main_v20 (F := F) x0 :=
    q7_v20 _ x0 g6_call4_v5 g6_call4_v7
  have g7_v19 : after (Q7 (F := F)) (after (Q6 (F := F)) (after (Q5 (F := F)) (after (Q4 (F := F)) (after (Q3 (F := F)) (after (Q2 (F := F)) (after (Q1 (F := F)) (launchContents m c))))))) (Proc.devRef .tc main_v19) = val_main_v19 (F := F) x1 :=
    (q7_keep_v19 _).trans g6_v19
  have g7_arg2 : after (Q7 (F := F)) (after (Q6 (F := F)) (after (Q5 (F := F)) (after (Q4 (F := F)) (after (Q3 (F := F)) (after (Q2 (F := F)) (after (Q1 (F := F)) (launchContents m c))))))) (Proc.devRef .tc main_arg2) = x2 :=
    (q7_keep_arg2 _).trans g6_arg2
  have g8_v29 : after (Q8 (F := F)) (after (Q7 (F := F)) (after (Q6 (F := F)) (after (Q5 (F := F)) (after (Q4 (F := F)) (after (Q3 (F := F)) (after (Q2 (F := F)) (after (Q1 (F := F)) (launchContents m c)))))))) (Proc.devRef .tc main_v29) = val_main_v29 (F := F) x0 x1 :=
    q8_v29 _ x0 x1 g7_v19 g7_v20
  have g8_arg2 : after (Q8 (F := F)) (after (Q7 (F := F)) (after (Q6 (F := F)) (after (Q5 (F := F)) (after (Q4 (F := F)) (after (Q3 (F := F)) (after (Q2 (F := F)) (after (Q1 (F := F)) (launchContents m c)))))))) (Proc.devRef .tc main_arg2) = x2 :=
    (q8_keep_arg2 _).trans g7_arg2
  have g9_v30 : after (Q9 (F := F)) (after (Q8 (F := F)) (after (Q7 (F := F)) (after (Q6 (F := F)) (after (Q5 (F := F)) (after (Q4 (F := F)) (after (Q3 (F := F)) (after (Q2 (F := F)) (after (Q1 (F := F)) (launchContents m c))))))))) (Proc.devRef .tc main_v30) = val_main_v30 (F := F) x0 x1 :=
    q9_v30 _ x0 x1 g8_v29
  have g9_arg2 : after (Q9 (F := F)) (after (Q8 (F := F)) (after (Q7 (F := F)) (after (Q6 (F := F)) (after (Q5 (F := F)) (after (Q4 (F := F)) (after (Q3 (F := F)) (after (Q2 (F := F)) (after (Q1 (F := F)) (launchContents m c))))))))) (Proc.devRef .tc main_arg2) = x2 :=
    (q9_keep_arg2 _).trans g8_arg2
  have g10_v32 : after (Q10 (F := F)) (after (Q9 (F := F)) (after (Q8 (F := F)) (after (Q7 (F := F)) (after (Q6 (F := F)) (after (Q5 (F := F)) (after (Q4 (F := F)) (after (Q3 (F := F)) (after (Q2 (F := F)) (after (Q1 (F := F)) (launchContents m c)))))))))) (Proc.devRef .tc main_v32) = val_main_v32 (F := F) x0 x1 x2 :=
    q10_v32 _ x0 x1 x2 g9_v30 g9_arg2
  have g11_v33 : after (Q11 (F := F)) (after (Q10 (F := F)) (after (Q9 (F := F)) (after (Q8 (F := F)) (after (Q7 (F := F)) (after (Q6 (F := F)) (after (Q5 (F := F)) (after (Q4 (F := F)) (after (Q3 (F := F)) (after (Q2 (F := F)) (after (Q1 (F := F)) (launchContents m c))))))))))) (Proc.devRef .tc main_v33) = val_main_v33 (F := F) x0 x1 x2 :=
    q11_v33 _ x0 x1 x2 g10_v32
  have g12_v34 : after (Q12 (F := F)) (after (Q11 (F := F)) (after (Q10 (F := F)) (after (Q9 (F := F)) (after (Q8 (F := F)) (after (Q7 (F := F)) (after (Q6 (F := F)) (after (Q5 (F := F)) (after (Q4 (F := F)) (after (Q3 (F := F)) (after (Q2 (F := F)) (after (Q1 (F := F)) (launchContents m c)))))))))))) (Proc.devRef .tc main_v34) = val_main_v34 (F := F) x0 x1 x2 :=
    q12_v34 _ x0 x1 x2 g11_v33
  exact g12_v34

end Cert.ReferenceIdeal.Eval

end
-- ==== Proof.RefValue.lean ====
/-
  The reference program's staged value, read stage by stage at an index, is the specification's total: the mean over
  all rows and sides of the weighted distribution-focal loss of one box side.
-/
import proofs.«122073_j13116830122188_1_alg».proof.Proof.Spec
import proofs.«122073_j13116830122188_1_alg».proof.Proof.RefRead
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.ReadP Idealize.ShloMosaic Idealize.ShloMosaic.ValueIdx Cert.DFL

/-! ## The stages of one side's target: clip, bins and weights -/

section Target
variable (x1 : S1048576x4.Idx → EReal) (i : S1048576x4.Idx)

/-- The clipped target. -/
theorem v1_at : val_main_v1 (F := Ideal) x1 i = clipT (x1 i) := by
  rw [val_main_v1_apply, val_main_call0_v4_apply, val_main_call0_v3_apply, val_main_c_apply, val_main_call0_v2_apply,
    val_main_call0_v1_apply, val_main_call0_v0_apply, val_main_cst_apply]
  show min ((((15#32 : BitVec 32).toInt : ℝ) : EReal)) (max zeroR (x1 i)) = _
  rw [sitofp_fifteen]
  rfl

/-- Its integer part. -/
theorem v2_at : val_main_v2 (F := Ideal) x1 i = floorT (x1 i) := by
  rw [val_main_v2_apply, v1_at]
  rfl

/-- The left bin. -/
theorem v3_at : val_main_v3 (F := Ideal) x1 i = leftBin (x1 i) := by
  rw [val_main_v3_apply, v2_at]
  rfl

/-- The right bin. -/
theorem v6_at : val_main_v6 (F := Ideal) x1 i = rightBin (x1 i) := by
  rw [val_main_v6_apply, val_main_call1_v4_apply, val_main_call1_v3_apply, val_main_c_2_apply, val_main_call1_v2_apply,
    val_main_call1_v1_apply, val_main_call1_v0_apply, val_main_c_1_apply, val_main_v5_apply, v3_at, val_main_v4_apply,
    val_main_c_0_apply]
  rfl

/-- The right bin's weight. -/
theorem v8_at : val_main_v8 (F := Ideal) x1 i = wRight (x1 i) := by
  rw [val_main_v8_apply, v1_at, val_main_v7_apply, v3_at]
  show clipT (x1 i) - ((((leftBin (x1 i)).toInt : ℝ) : EReal)) = _
  rw [sitofp_leftBin]
  rfl

/-- The left bin's weight. -/
theorem v10_at : val_main_v10 (F := Ideal) x1 i = wLeft (x1 i) := by
  rw [val_main_v10_apply, v8_at, val_main_v9_apply, val_main_cst_3_apply]
  rfl

end Target

/-! ## The two-hot label at a bin -/

/-- Equality of words does not depend on the order of its operands. -/
theorem cmpi_eq_comm {w : Nat} (a c : BitVec w) : IntOp.cmpi .eq a c = IntOp.cmpi .eq c a := by
  unfold IntOp.cmpi
  show BitVec.ofBool (a == c) = BitVec.ofBool (c == a)
  rw [BEq.comm]

section Label
variable (x1 : S1048576x4.Idx → EReal) (n : Fin 1048576) (k : Fin 4) (b : Fin 16)

theorem idx_call2 : idx_main_call2_v0 (idx_main_call2_v2 (ix3 n k b)) = ix2 n k :=
  funext fun a => Fin.ext (by match a with | ⟨0, _⟩ => rfl | ⟨1, _⟩ => rfl)
theorem idx_call3 : idx_main_call3_v0 (idx_main_call3_v2 (ix3 n k b)) = ix2 n k :=
  funext fun a => Fin.ext (by match a with | ⟨0, _⟩ => rfl | ⟨1, _⟩ => rfl)
theorem idx_v14 : idx_main_v13 (idx_main_v14 (ix3 n k b)) = ix2 n k :=
  funext fun a => Fin.ext (by match a with | ⟨0, _⟩ => rfl | ⟨1, _⟩ => rfl)
theorem idx_v17 : idx_main_v16 (idx_main_v17 (ix3 n k b)) = ix2 n k :=
  funext fun a => Fin.ext (by match a with | ⟨0, _⟩ => rfl | ⟨1, _⟩ => rfl)

/-- The left bin's one-hot factor at bin `b`. -/
theorem v11_at : val_main_v11 (F := Ideal) x1 (ix3 n k b)
    = ((((IntOp.cmpi .eq (lane b) (leftBin (x1 (ix2 n k)))).toNat : ℝ)) : EReal) := by
  rw [val_main_v11_apply, val_main_call2_v4_apply, val_main_call2_v2_apply, val_main_call2_v0_apply, idx_call2, v3_at,
    val_main_call2_v3_apply, val_main_call2_v1_apply, cmpi_eq_comm]
  rfl

/-- The right bin's one-hot factor at bin `b`. -/
theorem v12_at : val_main_v12 (F := Ideal) x1 (ix3 n k b)
    = ((((IntOp.cmpi .eq (lane b) (rightBin (x1 (ix2 n k)))).toNat : ℝ)) : EReal) := by
  rw [val_main_v12_apply, val_main_call3_v4_apply, val_main_call3_v2_apply, val_main_call3_v0_apply, idx_call3, v6_at,
    val_main_call3_v3_apply, val_main_call3_v1_apply, cmpi_eq_comm]
  rfl

/-- The label: each one-hot factor times its weight, added. -/
theorem v19_at : val_main_v19 (F := Ideal) x1 (ix3 n k b) = twoHot (x1 (ix2 n k)) b := by
  rw [val_main_v19_apply, val_main_v15_apply, val_main_v18_apply, v11_at, v12_at, val_main_v14_apply, val_main_v13_apply,
    idx_v14, v10_at, val_main_v17_apply, val_main_v16_apply, idx_v17, v8_at]
  show ((((IntOp.cmpi .eq (lane b) (leftBin (x1 (ix2 n k)))).toNat : ℝ)) : EReal) * wLeft (x1 (ix2 n k))
      + ((((IntOp.cmpi .eq (lane b) (rightBin (x1 (ix2 n k)))).toNat : ℝ)) : EReal) * wRight (x1 (ix2 n k)) = _
  rw [uitofp_mul, uitofp_mul]
  rfl

end Label

/-! ## The logits of one side and their log-softmax -/

section Logits
variable (x0 : S1048576x64.Idx → EReal) (n : Fin 1048576) (k : Fin 4)

/-- Logit `b` of side `k` of row `n` is column `16 k + b` of that row. -/
theorem v0_at (b : Fin 16) : val_main_v0 (F := Ideal) x0 (ix3 n k b) = x0 (ix2 n (seg k b)) := by
  rw [val_main_v0_apply]
  refine congrArg x0 (funext fun a => Fin.ext ?_)
  have hk := k.isLt
  have hb := b.isLt
  match a with
  | ⟨0, _⟩ =>
    show ((n.val * 4 + k.val) * 16 + b.val) / 64 = n.val
    omega
  | ⟨1, _⟩ =>
    show ((n.val * 4 + k.val) * 16 + b.val) % 64 = 16 * k.val + b.val
    omega

theorem reduces_d2 : S1048576x4x16.Reduces [2] S1048576x4 := by decide

/-- The side's index with bin `b` put back on the reduced axis. -/
theorem lift_ix3 (b : Fin (S1048576x4x16.size 2)) :
    reduces_d2.lift (ix2 n k) b = ix3 n k (⟨b.val, b.isLt⟩ : Fin 16) := by
  funext c
  apply Fin.ext
  match c with
  | ⟨0, _⟩ => rfl
  | ⟨1, _⟩ => rfl
  | ⟨2, _⟩ => rfl

/-- The side's sixteen logits. -/
abbrev logits (b : Fin 16) : EReal := x0 (ix2 n (seg k b))

/-- The largest logit of the side. -/
theorem call4_v0_at : val_main_call4_v0 (F := Ideal) x0 (ix2 n k) = rowMax (logits x0 n k) := by
  unfold val_main_call4_v0
  rw [Host.reduce_eq_fold_single FloatOps.maximumf _ _ reducesTo_S1048576x4x16_S1048576x4_d2 reduces_d2 h_S_]
  have hf : (val_main_v0 (F := Ideal) x0 ∘ reduces_d2.lift (ix2 n k)) = fun b : Fin 16 => x0 (ix2 n (seg k b)) :=
    funext fun b => by
      show val_main_v0 (F := Ideal) x0 (reduces_d2.lift (ix2 n k) b) = _
      rw [lift_ix3, v0_at]
      rfl
  exact congrArg (fun f => Finset.fold max negInf f (Finset.univ : Finset (Fin 16))) hf

/-- The maximum with `-∞` changes nothing. -/
theorem call4_v2_at : val_main_call4_v2 (F := Ideal) x0 (ix2 n k) = rowMax (logits x0 n k) := by
  rw [val_main_call4_v2_apply, call4_v0_at, val_main_call4_v1_apply, val_main_call4_cst_0_apply]
  exact max_negInf _

end Logits

/-! ## One side's loss -/

section Side
variable (x0 : S1048576x64.Idx → EReal) (x1 : S1048576x4.Idx → EReal) (x2 : S1048576x1.Idx → EReal)
  (n : Fin 1048576) (k : Fin 4)

theorem idx_call4_v4 (b : Fin 16) : idx_main_call4_v3 (idx_main_call4_v4 (ix3 n k b)) = ix2 n k :=
  funext fun a => Fin.ext (by match a with | ⟨0, _⟩ => rfl | ⟨1, _⟩ => rfl)
theorem idx_call4_v10 (b : Fin 16) : idx_main_call4_v8 (idx_main_call4_v10 (ix3 n k b)) = ix2 n k :=
  funext fun a => Fin.ext (by match a with | ⟨0, _⟩ => rfl | ⟨1, _⟩ => rfl)
theorem idx_call4_v7 (b : Fin 16) : idx_main_call4_v7 (ix2 n k) b = ix3 n k b :=
  funext fun a => Fin.ext (by match a with | ⟨0, _⟩ => rfl | ⟨1, _⟩ => rfl | ⟨2, _⟩ => rfl)
theorem idx_v30 (b : Fin 16) : idx_main_v30 (ix2 n k) b = ix3 n k b :=
  funext fun a => Fin.ext (by match a with | ⟨0, _⟩ => rfl | ⟨1, _⟩ => rfl | ⟨2, _⟩ => rfl)
theorem idx_v31 : idx_main_v31 (ix2 n k) = ix2 n (0 : Fin 1) :=
  funext fun a => Fin.ext (by match a with | ⟨0, _⟩ => rfl | ⟨1, _⟩ => rfl)

/-- A logit less the side's largest. -/
theorem call4_v5_at (b : Fin 16) : val_main_call4_v5 (F := Ideal) x0 (ix3 n k b) = shifted (logits x0 n k) b := by
  rw [val_main_call4_v5_apply, v0_at, val_main_call4_v4_apply, val_main_call4_v3_apply, idx_call4_v4, call4_v2_at]
  rfl

/-- The sum of the shifted logits' exponentials. -/
theorem call4_v7_at : val_main_call4_v7 (F := Ideal) x0 (ix2 n k)
    = ∑ b : Fin 16, Ideal.exp (shifted (logits x0 n k) b) := by
  rw [val_main_call4_v7_apply, val_main_call4_cst_1_apply]
  show zeroR + _ = _
  rw [zeroR_eq, zero_add]
  refine Finset.sum_congr rfl fun b _ => ?_
  rw [idx_call4_v7, val_main_call4_v6_apply, call4_v5_at]
  rfl

/-- The log-softmax of the side at bin `b`. -/
theorem v20_at (b : Fin 16) : val_main_v20 (F := Ideal) x0 (ix3 n k b)
    = shifted (logits x0 n k) b - logSumExp (logits x0 n k) := by
  rw [val_main_v20_apply, call4_v5_at, val_main_call4_v10_apply, val_main_call4_v9_apply, val_main_call4_v8_apply,
    idx_call4_v10, call4_v7_at]
  rfl

/-- The Kullback–Leibler term of bin `b`. -/
theorem v29_at (b : Fin 16) : val_main_v29 (F := Ideal) x0 x1 (ix3 n k b) = klAt (logits x0 n k) (x1 (ix2 n k)) b := by
  rw [val_main_v29_apply, val_main_v26_apply, val_main_v28_apply, val_main_v27_apply, val_main_v24_apply,
    val_main_v23_apply, val_main_v22_apply, v19_at, v20_at, val_main_v25_apply, val_main_cst_6_apply, val_main_v21_apply,
    val_main_cst_4_apply, val_main_call5_v1_apply, val_main_call5_v0_apply, val_main_cst_5_apply,
    val_main_call6_v1_apply, val_main_call6_v0_apply, val_main_cst_7_apply]
  rfl

/-- The side's Kullback–Leibler sum. -/
theorem v30_at : val_main_v30 (F := Ideal) x0 x1 (ix2 n k)
    = ∑ b : Fin 16, klAt (logits x0 n k) (x1 (ix2 n k)) b := by
  rw [val_main_v30_apply, val_main_cst_8_apply]
  show zeroR + _ = _
  rw [zeroR_eq, zero_add]
  refine Finset.sum_congr rfl fun b _ => ?_
  rw [idx_v30, v29_at]

/-- The side's weighted loss. -/
theorem v32_at : val_main_v32 (F := Ideal) x0 x1 x2 (ix2 n k)
    = sideLoss (logits x0 n k) (x1 (ix2 n k)) (x2 (ix2 n 0)) := by
  rw [val_main_v32_apply, v30_at, val_main_v31_apply, idx_v31]
  rfl

end Side

/-! ## The total -/

/-- The sum of every side's loss, from zero. -/
theorem v33_at (x0 : S1048576x64.Idx → EReal) (x1 : S1048576x4.Idx → EReal) (x2 : S1048576x1.Idx → EReal) (i : S_.Idx) :
    val_main_v33 (F := Ideal) x0 x1 x2 i
      = zeroR + ∑ n : Fin 1048576, ∑ k : Fin 4,
          sideLoss (fun b => x0 (ix2 n (seg k b))) (x1 (ix2 n k)) (x2 (ix2 n 0)) := by
  rw [val_main_v33_apply, val_main_cst_9_apply, sum_idx2]
  exact congrArg (zeroR + ·) (Finset.sum_congr rfl fun n _ => Finset.sum_congr rfl fun k _ => v32_at x0 x1 x2 n k)

/-- The reference's result: the total divided by the number of sides. -/
theorem result_at (x0 : S1048576x64.Idx → EReal) (x1 : S1048576x4.Idx → EReal) (x2 : S1048576x1.Idx → EReal) (i : S_.Idx) :
    val_main_v34 (F := Ideal) x0 x1 x2 i
      = Ideal.div (zeroR + ∑ n : Fin 1048576, ∑ k : Fin 4,
          sideLoss (fun b => x0 (ix2 n (seg k b))) (x1 (ix2 n k)) (x2 (ix2 n 0)))
        (Ideal.ofBits .f32 0x4A800000#32) := by
  rw [val_main_v34_apply, v33_at, val_main_cst_10_apply]
  rfl

end Cert.ReferenceIdeal.RefValue

end
-- ==== Proof.lean ====
/-
  The certificate of the distribution-focal-loss kernel against its jnp reference.

  Both programs compute, for each of the 1048576 rows and each of the row's four box sides, the weighted Kullback–Leibler
  loss of the side's sixteen logits against the two-hot label of the side's clipped target (Proof/Spec.lean: `sideLoss`),
  add all of them to zero and divide by 4194304. The reference does it in one pass over an array of all sides; the kernel
  tile by tile: per grid point the four sides of 2048 rows, summed over the rows and added into an output block that a
  core revisits over its 256 points, the two cores' blocks added on the host. Over the extended reals addition is
  commutative and associative, so the two totals are one number; no finiteness of the inputs is used.

  The kernel's side: its frame is the generated one; the value its result buffer ends holding is read off the generated
  frame run (Proof/KSide.lean, KRow.lean, KTile.lean: a tile's total; KBody.lean: what each case of the body stores;
  KValue.lean: the accumulation over the grid, the result array, the host operations after the region; KBridge.lean: from
  tiles to the whole arrays). The reference's side: its run (Proof/RefRun.lean), the fold of its operations evaluated to the
  staged values (Proof/RefEval.lean over Proof/RefRead.lean), and the staged result as the same total (Proof/RefValue.lean).
  The ideal pass rewrote nothing, so the idealization claim is trivial.
-/
import proofs.«122073_j13116830122188_1_alg».proof.Defs
import proofs.«122073_j13116830122188_1_alg».proof.Proof.Gen.Kernel
import proofs.«122073_j13116830122188_1_alg».proof.Proof.Gen.Kernel.Skeleton
import proofs.«122073_j13116830122188_1_alg».proof.Proof.Gen.Kernel.Launch
import proofs.«122073_j13116830122188_1_alg».proof.Proof.Gen.Kernel.Points
import proofs.«122073_j13116830122188_1_alg».proof.Proof.Gen.Kernel.Frame
import proofs.«122073_j13116830122188_1_alg».proof.Proof.Gen.KernelIdeal
import proofs.«122073_j13116830122188_1_alg».proof.Proof.Gen.KernelIdeal.Skeleton
import proofs.«122073_j13116830122188_1_alg».proof.Proof.Gen.KernelIdeal.Launch
import proofs.«122073_j13116830122188_1_alg».proof.Proof.Gen.KernelIdeal.Points
import proofs.«122073_j13116830122188_1_alg».proof.Proof.Gen.KernelIdeal.Frame
import proofs.«122073_j13116830122188_1_alg».proof.Proof.Gen.ReferenceIdeal
import proofs.«122073_j13116830122188_1_alg».proof.Proof.Gen.Pre_finite_inputs
import proofs.«122073_j13116830122188_1_alg».proof.Proof.KBridge
import proofs.«122073_j13116830122188_1_alg».proof.Proof.RefEval
import proofs.«122073_j13116830122188_1_alg».proof.Proof.RefValue
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the total of all side losses, added to zero and divided by the number of sides. -/
theorem algebraic : Cert.algebraic_KernelIdeal_ReferenceIdeal := by
  intro m ρ m' ρ' _ hagree
  refine ⟨fun c => Cert.KernelIdeal.Acc.kernelResult m c, Cert.KernelIdeal.Acc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Eval.result_eq, (hagree c).1, (hagree c).2.1, (hagree c).2.2]
  show _ = Cert.KernelIdeal.Acc.kernelResult m c
  rw [Cert.KernelIdeal.Acc.kernelResult_eq]
  funext i
  exact Cert.ReferenceIdeal.RefValue.result_at _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
